-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S64x128 : Shape := ⟨2, ![64, 128]⟩
abbrev S64 : Shape := ⟨1, ![64]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x2048x128 .f32) (main_arg1 : FVec F S64x128 .f32) (main_arg2 : FVec F S64 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x2048x128 : Shape := ⟨3, ![8, 2048, 128]⟩
abbrev S64x128 : Shape := ⟨2, ![64, 128]⟩
abbrev S64 : Shape := ⟨1, ![64]⟩
abbrev S1x64 : Shape := ⟨2, ![1, 64]⟩
abbrev S8x2048x64 : Shape := ⟨3, ![8, 2048, 64]⟩
abbrev S1x2048x128 : Shape := ⟨3, ![1, 2048, 128]⟩
abbrev S1x2048x64 : Shape := ⟨3, ![1, 2048, 64]⟩
abbrev S2048x128 : Shape := ⟨2, ![2048, 128]⟩
abbrev S2048x64 : Shape := ⟨2, ![2048, 64]⟩
abbrev S8x2048x2048 : Shape := ⟨3, ![8, 2048, 2048]⟩
abbrev S1x512x64 : Shape := ⟨3, ![1, 512, 64]⟩
abbrev S1x512x2048 : Shape := ⟨3, ![1, 512, 2048]⟩
abbrev S512x64 : Shape := ⟨2, ![512, 64]⟩
abbrev S512x2048 : Shape := ⟨2, ![512, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x128, .f32⟩
  | .hbm, ⟨1, _⟩ => ⟨S64x128, .f32⟩
  | .hbm, ⟨2, _⟩ => ⟨S64, .f32⟩
  | .hbm, ⟨3, _⟩ => ⟨S1x64, .f32⟩
  | .hbm, ⟨4, _⟩ => ⟨S8x2048x64, .f32⟩
  | .hbm, ⟨5, _⟩ => ⟨S8x2048x2048, .f32⟩
  | .hbm, ⟨6, _⟩ => ⟨S8x2048x64, .f32⟩
  | .local _ .vmem, ⟨0, _⟩ => ⟨S1x2048x128, .f32⟩
  | .local _ .vmem, ⟨1, _⟩ => ⟨S1x2048x128, .f32⟩
  | .local _ .vmem, ⟨2, _⟩ => ⟨S64x128, .f32⟩
  | .local _ .vmem, ⟨3, _⟩ => ⟨S1x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x2048x64, .f32⟩
  | .local _ .vmem, ⟨9, _⟩ => ⟨S1x2048x64, .f32⟩
  | .local _ .vmem, ⟨10, _⟩ => ⟨S1x512x2048, .f32⟩
  | .local _ .vmem, ⟨11, _⟩ => ⟨S1x512x2048, .f32⟩
  | .local _ .vmem, ⟨12, _⟩ => ⟨S1x512x64, .f32⟩
  | .local _ .vmem, ⟨13, _⟩ => ⟨S1x512x64, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64_S1x64 : S64.ShapeCasts S1x64
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S2048x128_S64x128_S2048x64_1_1_0_0_n_n_wf : DotDims.WF S2048x128 S64x128 S2048x64 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S8x2048x64.size a
  hwx0_3 : ∀ i : grid0.Coords, EltTy.bits .f32 = 32 ∨ (Rect.block (s := S8x2048x64) S1x2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x2048x64.size a
  hwx1_0 : ∀ i : grid1.Coords, EltTy.bits .f32 = 32 ∨ (Rect.block (s := S8x2048x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S8x2048x64.size a
  hwx1_1 : ∀ i : grid1.Coords, EltTy.bits .f32 = 32 ∨ (Rect.block (s := S8x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S8x2048x2048.size a
  hwx1_2 : ∀ i : grid1.Coords, EltTy.bits .f32 = 32 ∨ (Rect.block (s := S8x2048x2048) S1x512x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S8x2048x64.size a
  hwx1_3 : ∀ i : grid1.Coords, EltTy.bits .f32 = 32 ∨ (Rect.block (s := S8x2048x64) S1x512x64.size (cc1_transform_3 i) (hinb1_3 i)).WholeWords (EltTy.packing .f32)

variable [Facts₀]

def dot_S2048x128_S64x128_S2048x64_1_1_0_0_n_n : DotDims S2048x128 S64x128 S2048x64 where
  lhsContracting := [1]
  rhsContracting := [1]
  lhsNonContracting := [0]
  rhsNonContracting := [0]
  lhsBatch := []
  rhsBatch := []
  wf := dot_S2048x128_S64x128_S2048x64_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S1x512x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x128 : Shape := ⟨3, ![8, 2048, 128]⟩
abbrev S64x128 : Shape := ⟨2, ![64, 128]⟩
abbrev S64 : Shape := ⟨1, ![64]⟩
abbrev S8x2048x64 : Shape := ⟨3, ![8, 2048, 64]⟩
abbrev S1x1x64 : Shape := ⟨3, ![1, 1, 64]⟩
abbrev S8x2048x2048 : Shape := ⟨3, ![8, 2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S64x128, .f32⟩
  | .hbm, ⟨2, _⟩ => ⟨S64, .f32⟩
  | .hbm, ⟨3, _⟩ => ⟨S8x2048x64, .f32⟩
  | .hbm, ⟨4, _⟩ => ⟨S1x1x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x64, .f32⟩
  | .hbm, ⟨13, _⟩ => ⟨S_, .f32⟩
  | .hbm, ⟨14, _⟩ => ⟨S8x2048x64, .f32⟩
  | .hbm, ⟨15, _⟩ => ⟨S8x2048x64, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S_S8x2048x2048 : S_.BroadcastsInDim S8x2048x2048 (![] : Fin 0 → Fin S8x2048x2048.rank)
  bcast_S_S8x2048x64 : S_.BroadcastsInDim S8x2048x64 (![] : Fin 0 → Fin S8x2048x64.rank)
  dot_S8x2048x128_S64x128_S8x2048x64_2_1_01_0_n_n_wf : DotDims.WF S8x2048x128 S64x128 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x128_S64x128_S8x2048x64_2_1_01_0_n_n : DotDims S8x2048x128 S64x128 S8x2048x64 where
  lhsContracting := [2]
  rhsContracting := [1]
  lhsNonContracting := [0, 1]
  rhsNonContracting := [0]
  lhsBatch := []
  rhsBatch := []
  wf := dot_S8x2048x128_S64x128_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Word.Proj.lean ====
/-
  The projection call as the pipeline runs it. Grid point `t` is batch `t`: the body is handed the batch's
  `2048 × 128` slab of `x`, the whole weight matrix and the bias row, and leaves in the result's staging buffer the
  slab `x_t · Wᵀ + bias` (every row of the product shifted by the same bias row). The weight matrix and the bias row
  are fetched once, at the first point, and stay in place; the slab of `x` and the result slab move with the point.

  Stated here, at any contents `V` the call may be entered from: each window's block at a point read off its array,
  what the one store leaves in the result's buffer as a function of the three input blocks, the body's run on whole
  staging buffers, the pipeline's proof data (inputs left in place, the output at that function, full shares, nothing
  owed) and the body obligation at every grid point.
-/
import proofs.«150888_j43379169689769_1_alg».proof.Proof.Gen.Kernel.Launch
import proofs.«150888_j43379169689769_1_alg».proof.Proof.Gen.Kernel.Skeleton
import proofs.«150888_j43379169689769_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the call is entered from
variable (V : (c : Dev nD) → (b : Ref sig .tc) → Buf (Elt F) ((c : Thread nD τ).loc b))

/-! ## The windows' blocks -/

/-- Window `w`'s block at grid point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The slab of `x` is in its staging buffer at every point (it is fetched at every point). -/
theorem found_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The weight matrix is in its staging buffer at every point: fetched at the first, its block index never moves after. -/
theorem found_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- So is the bias row. -/
theorem found_b_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rX : Rect S1x2048x128 := Rect.unit (s := S1x2048x128) ![0, 0, 0] S1x2048x128.size inb_S1x2048x128_S1x2048x128_0_0_0
abbrev rW : Rect S64x128 := Rect.unit (s := S64x128) ![0, 0] S64x128.size inb_S64x128_S64x128_0_0
abbrev rB : Rect S1x64 := Rect.unit (s := S1x64) ![0, 0] S1x64.size inb_S1x64_S1x64_0_0
abbrev rE : Rect S1x2048x64 := Rect.unit (s := S1x2048x64) ![0, 0, 0] S1x2048x64.size inb_S1x2048x64_S1x2048x64_0_0_0

/-! ## What the body leaves in the result's buffer -/

/-- The result's staging buffer after the body, from the three input blocks: its one store, of the whole buffer. -/
def slab (x0 : Vec F S1x2048x128 .f32) (x1 : Vec F S64x128 .f32) (x2 : Vec F S1x64 .f32) : Vec F S1x2048x64 .f32 :=
  View.canon [⟨rE, k0_pay1 (View.ld x0 rX) (View.ld x1 rW) (View.ld x2 rB)⟩]

/-- The one store covers the buffer. -/
theorem slab_cover (p0 : Vec F S1x2048x64 .f32) (y : S1x2048x64.Idx) :
    ∃ pc ∈ ([⟨rE, p0⟩] : List (View.Piece (Elt F) S1x2048x64 .f32)), y ∈ pc.1.set :=
  View.cover_of_tiled [⟨rE, p0⟩] S1x2048x64.size (by rfl) y

/-! ## The body's run -/

set_option maxHeartbeats 1000000 in
/-- The body on whole staging buffers, the inputs' at `x0`, `x1`, `x2` and the result's at anything, runs to the
    continuation with the inputs as they were and the result's buffer at `slab x0 x1 x2`. -/
theorem run_body (c : Dev nD) (E : Set ℕ) (i : grid0.Coords)
    (arg1 : Memref sig .tc .vmem S1x2048x128 .f32) (harg1 : arg1.IsWhole) (arg2 : Memref sig .tc .vmem S64x128 .f32) (harg2 : arg2.IsWhole)
    (arg3 : Memref sig .tc .vmem S1x64 .f32) (harg3 : arg3.IsWhole) (arg4 : Memref sig .tc .vmem S1x2048x64 .f32) (harg4 : arg4.IsWhole)
    (x0 : Vec F S1x2048x128 .f32) (x1 : Vec F S64x128 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (slab x0 x1 x2)) -∗ K ⟨⟩))
      ⊢ wp frame (wpE (defs₀ (F := F)) Variants.none c none) E (cc0__ex_kernel i arg1 harg1 arg2 harg2 arg3 harg3 arg4 harg4) K := by
  simp only [cc0__ex_kernel_eq_skeleton]; unfold cc0__ex_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (slab_cover _)

/-! ## The pipeline's proof data -/

/-- The proof data of the projection call on core `c`: the arrays as the call finds them; after the body at point `t`
    each input's buffer still at its block and the result's at `slab` of the three blocks; the invariant holds only what
    the body never touches; full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => slab (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_e (c : Dev nD) (t : Fin cfg0.N) :
    (dat V c).after 3 t = slab (blk V c 0 t) (blk V c 1 t) (blk V c 2 t) := by dsimp only [dat]

theorem found_x (c : Dev nD) (t : Fin cfg0.N) (d) : (dat V c).before 0 t d = blk V c 0 t :=
  found_x_of V (dat V c) (dat_A V c 0) (after_x V c) t d
theorem found_w (c : Dev nD) (t : Fin cfg0.N) (d) : (dat V c).before 1 t d = blk V c 1 t :=
  found_w_of V (dat V c) (dat_A V c 1) (after_w V c) t d
theorem found_b (c : Dev nD) (t : Fin cfg0.N) (d) : (dat V c).before 2 t d = blk V c 2 t :=
  found_b_of V (dat V c) (dat_A V c 2) (after_b V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `run_body` applies; the invariant and what the
    core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_x, found_w, found_b]
  rw [show (dat V c).Φ t.succ = (dat V c).Φ t.castSucc from rfl,
    show (dat V c).owesAt () t.succ = (dat V c).owesAt () t.castSucc from rfl,
    after_x, after_w, after_b, after_e]
  iintro ⟨HΦ, Ho, ⟨%d0, H0⟩, ⟨%d1, H1⟩, ⟨%d2, H2⟩, ⟨%d3, H3⟩⟩
  iapply (run_body c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W0, bigSep_W0]
  exact body_at V c t

end Cert.Kernel.Proj

end
-- ==== Proof.Word.Link.lean ====
/-
  The link call as the pipeline runs it. Grid point `(β, r)` is batch `β` and row tile `r` (512 query rows): the body is
  handed the tile's `512 × 64` feature rows and, beside them, ALL `2048 × 64` feature rows of the batch (the keys, fetched
  once per batch and left in place over its four tiles); it leaves the tile's `512 × 2048` link weights in one result
  buffer and its `512 × 64` node features in the other.

  Both inputs are windows on ONE array (the projected features), so the array's full share is dealt between them: the
  query window holds the left half-share, the key window the right; neither writes.

  Stated here, at any contents `V` the call may be entered from: each window's block at a point, what the two stores
  leave as functions of the two input blocks, the body's run on whole staging buffers, the pipeline's proof data and
  the body obligation at every grid point.
-/
import proofs.«150888_j43379169689769_1_alg».proof.Proof.Gen.Kernel.Launch
import proofs.«150888_j43379169689769_1_alg».proof.Proof.Gen.Kernel.Skeleton
import proofs.«150888_j43379169689769_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Link

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the call is entered from
variable (V : (c : Dev nD) → (b : Ref sig .tc) → Buf (Elt F) ((c : Thread nD τ).loc b))

/-! ## The windows' blocks -/

/-- Window `w`'s block at grid point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile is in its staging buffer at every point (it is fetched at every point). -/
theorem found_q_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The batch's keys are in their staging buffer at every point: fetched at a batch's first tile, the block index does
    not move over its other three. -/
theorem found_k_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rQ : Rect S1x512x64 := Rect.unit (s := S1x512x64) ![0, 0, 0] S1x512x64.size inb_S1x512x64_S1x512x64_0_0_0
abbrev rK : Rect S1x2048x64 := Rect.unit (s := S1x2048x64) ![0, 0, 0] S1x2048x64.size inb_S1x2048x64_S1x2048x64_0_0_0
abbrev rL : Rect S1x512x2048 := Rect.unit (s := S1x512x2048) ![0, 0, 0] S1x512x2048.size inb_S1x512x2048_S1x512x2048_0_0_0

/-! ## What the body leaves in the two result buffers -/

/-- The link weights' staging buffer after the body, from the two input blocks: its one store, of the whole buffer. -/
def lpTile (x0 : Vec F S1x512x64 .f32) (x1 : Vec F S1x2048x64 .f32) : Vec F S1x512x2048 .f32 :=
  View.canon [⟨rL, k1_pay3 (View.ld x0 rQ) (View.ld x1 rK)⟩]

/-- The node features' staging buffer after the body. -/
def nfTile (x0 : Vec F S1x512x64 .f32) (x1 : Vec F S1x2048x64 .f32) : Vec F S1x512x64 .f32 :=
  View.canon [⟨rQ, k1_pay4 (View.ld x0 rQ) (View.ld x1 rK)⟩]

theorem lpTile_cover (p0 : Vec F S1x512x2048 .f32) (y : S1x512x2048.Idx) :
    ∃ pc ∈ ([⟨rL, p0⟩] : List (View.Piece (Elt F) S1x512x2048 .f32)), y ∈ pc.1.set :=
  View.cover_of_tiled [⟨rL, p0⟩] S1x512x2048.size (by rfl) y

theorem nfTile_cover (p0 : Vec F S1x512x64 .f32) (y : S1x512x64.Idx) :
    ∃ pc ∈ ([⟨rQ, p0⟩] : List (View.Piece (Elt F) S1x512x64 .f32)), y ∈ pc.1.set :=
  View.cover_of_tiled [⟨rQ, p0⟩] S1x512x64.size (by rfl) y

/-! ## The body's run -/

set_option maxHeartbeats 1000000 in
/-- The body on whole staging buffers, the inputs' at `x0`, `x1` and the results' at anything, runs to the continuation
    with the inputs as they were and the results' buffers at `lpTile x0 x1` and `nfTile x0 x1`. -/
theorem run_body (c : Dev nD) (E : Set ℕ) (i : grid1.Coords)
    (arg2 : Memref sig .tc .vmem S1x512x64 .f32) (harg2 : arg2.IsWhole) (arg3 : Memref sig .tc .vmem S1x2048x64 .f32) (harg3 : arg3.IsWhole)
    (arg4 : Memref sig .tc .vmem S1x512x2048 .f32) (harg4 : arg4.IsWhole) (arg5 : Memref sig .tc .vmem S1x512x64 .f32) (harg5 : arg5.IsWhole)
    (x0 : Vec F S1x512x64 .f32) (x1 : Vec F S1x2048x64 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (lpTile x0 x1) ∗ owns (c : Thread nD τ) arg5 fullShare (nfTile x0 x1)) -∗ K ⟨⟩))
      ⊢ wp frame (wpE (defs₀ (F := F)) Variants.none c none) E (cc1__lp_kernel i arg2 harg2 arg3 harg3 arg4 harg4 arg5 harg5) K := by
  simp only [cc1__lp_kernel_eq_skeleton]; unfold cc1__lp_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (lpTile_cover _)
  iexists _; isplitr
  swap; · iexact H3
  ipureintro
  exact View.read_writes_eq_canon _ _ _ (nfTile_cover _)

/-! ## The pipeline's proof data -/

/-- The proof data of the link call on core `c`: the arrays as the call finds them; after the body at point `t` each
    input's buffer still at its block and each result's at its tile function of the two blocks; the invariant holds only
    what the body never touches; the feature array's share dealt left to the query window and right to the key window;
    nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => lpTile (blk V c 0 t) (blk V c 1 t)
    | ⟨3, _⟩ => nfTile (blk V c 0 t) (blk V c 1 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem dat_A (c : Dev nD) (w : Fin cfg1.W) : (dat V c).A w = V c (Pipeline.arrRef spec1 w) := by
  dsimp only [dat]

theorem after_q (c : Dev nD) (t : Fin cfg1.N) : (dat V c).after 0 t = blk V c 0 t := by dsimp only [dat]
theorem after_k (c : Dev nD) (t : Fin cfg1.N) : (dat V c).after 1 t = blk V c 1 t := by dsimp only [dat]
theorem after_lp (c : Dev nD) (t : Fin cfg1.N) : (dat V c).after 2 t = lpTile (blk V c 0 t) (blk V c 1 t) := by dsimp only [dat]
theorem after_nf (c : Dev nD) (t : Fin cfg1.N) : (dat V c).after 3 t = nfTile (blk V c 0 t) (blk V c 1 t) := by dsimp only [dat]

/-- The shares the windows hold their arrays at. -/
theorem share_q (c : Dev nD) : (dat V c).share 0 = fullShare.left := by unfold Dat.share; rfl
theorem share_k (c : Dev nD) : (dat V c).share 1 = fullShare.right := by unfold Dat.share; rfl
theorem share_lp (c : Dev nD) : (dat V c).share 2 = fullShare := by unfold Dat.share; rfl
theorem share_nf (c : Dev nD) : (dat V c).share 3 = fullShare := by unfold Dat.share; rfl

theorem found_q (c : Dev nD) (t : Fin cfg1.N) (d) : (dat V c).before 0 t d = blk V c 0 t :=
  found_q_of V (dat V c) (dat_A V c 0) (after_q V c) t d
theorem found_k (c : Dev nD) (t : Fin cfg1.N) (d) : (dat V c).before 1 t d = blk V c 1 t :=
  found_k_of V (dat V c) (dat_A V c 1) (after_k V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so `run_body` applies; the invariant and what the
    core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found_q, found_k]
  rw [show (dat V c).Φ t.succ = (dat V c).Φ t.castSucc from rfl,
    show (dat V c).owesAt () t.succ = (dat V c).owesAt () t.castSucc from rfl,
    after_q, after_k, after_lp, after_nf]
  iintro ⟨HΦ, Ho, ⟨%d0, H0⟩, ⟨%d1, H1⟩, ⟨%d2, H2⟩, ⟨%d3, H3⟩⟩
  iapply (run_body c Set.univ _ _ _ _ _ _ _ _ _ (blk V c 0 t) (blk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W1, bigSep_W1]
  exact body_at V c t

end Cert.Kernel.Link

end
-- ==== Proof.Word.LinkShare.lean ====
/-
  The link call's arrays among the core's buffers. The call's four windows stand on THREE buffers: the feature array
  (read twice, through the query window and the key window) and the two result arrays. On entry the feature array's
  full share is dealt out, the left half to the query window and the right half to the key window; neither window
  writes, so on exit both halves still hold the entry contents and join back into the full share.
-/
import proofs.«150888_j43379169689769_1_alg».proof.Proof.Word.Link

set_option maxRecDepth 16384

noncomputable section

namespace Cert.Kernel.Link

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The three buffers behind the four windows, each whole at the full share. -/
theorem arrBufs_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2_0) ↦{fullShare} V main_v2_0)
          ∗ (((c : Thread nD τ).loc main_v2_1) ↦{fullShare} V main_v2_1)) := by
  unfold Pipeline.arrBufs
  exact bigSep_eq_bigSepL_of_eq [main_v1, main_v2_0, main_v2_1] (by decide) (by decide) _

variable (V : (c : Dev nD) → (b : Ref sig .tc) → Buf (Elt F) ((c : Thread nD τ).loc b))

/-- The pipeline's four arrays at contents `G`, window by window at its share. -/
theorem arrays_eq (c : Dev nD) (G : (w : Fin cfg1.W) → Buf (Elt F) ((cfg1.win w).arr.view.loc (c : Thread nD τ))) :
    ((dat V c).arrays G : sProp 𝕄)
      = iprop((((c : Thread nD τ).loc main_v1) ↦{fullShare.left} G 0) ∗ (((c : Thread nD τ).loc main_v1) ↦{fullShare.right} G 1)
          ∗ (((c : Thread nD τ).loc main_v2_0) ↦{fullShare} G 2) ∗ (((c : Thread nD τ).loc main_v2_1) ↦{fullShare} G 3)) := by
  unfold Dat.arrays
  rw [bigSep_W1, (arr_whole1 0).set_eq_univ, (arr_whole1 2).set_eq_univ, (arr_whole1 3).set_eq_univ,
    share_q, share_k, share_lp, share_nf]

/-- ENTRY: the three buffers at the entry contents make the pipeline's arrays at entry, the feature array's share dealt
    left and right. -/
theorem arrays_in (c : Dev nD) :
    (Pipeline.arrBufs (Ix := Unit) (Name := ℕ) (U := UR sig nD τ) (Lvl := ℕ) spec1 c (V c) : sProp 𝕄)
      ⊢ (dat V c).arrays ((dat V c).arrAt · 0) := by
  rw [arrBufs_eq, arrays_eq]
  iintro ⟨He, Hl, Hn⟩
  ihave He' := (pointsTo_share (PosShare.mem_left_op_right fullShare)).1 $$ He
  icases He' with ⟨Ha, Hb⟩
  isplitl [Ha]; · iexact Ha
  isplitl [Hb]; · iexact Hb
  isplitl [Hl]; · iexact Hl
  iexact Hn

/-- EXIT: the pipeline's arrays at exit make the three buffers at any contents `V'` that has the results where the
    pipeline left them and the feature array as entered (both of its windows end at the entry contents). -/
theorem arrays_out (c : Dev nD) (V' : (b : Ref sig .tc) → Buf (Elt F) ((c : Thread nD τ).loc b))
    (he : V' main_v1 = V c main_v1) (hl : (dat V c).arrAt 2 cfg1.N = V' main_v2_0) (hn : (dat V c).arrAt 3 cfg1.N = V' main_v2_1) :
    ((dat V c).arrays ((dat V c).arrAt · cfg1.N) : sProp 𝕄)
      ⊢ Pipeline.arrBufs (Ix := Unit) (Name := ℕ) (U := UR sig nD τ) (Lvl := ℕ) spec1 c V' := by
  rw [arrBufs_eq, arrays_eq, hl, hn, he,
    show (dat V c).arrAt 0 cfg1.N = V c main_v1 from ((dat V c).arrAt_in 0 rfl _).trans (dat_A V c 0),
    show (dat V c).arrAt 1 cfg1.N = V c main_v1 from ((dat V c).arrAt_in 1 rfl _).trans (dat_A V c 1)]
  iintro ⟨Ha, Hb, Hl, Hn⟩
  isplitl [Ha Hb]
  · iapply (pointsTo_share (PosShare.mem_left_op_right fullShare)).2
    isplitl [Ha]; · iexact Ha
    iexact Hb
  isplitl [Hl]; · iexact Hl
  iexact Hn

end Cert.Kernel.Link

end
-- ==== Proof.Word.Run.lean ====
/-
  The whole program's run. `@main` is: one host operation (the bias vector reshaped to a `1 × 64` row), the projection
  call, the link call. Between items core `c` holds every unscoped buffer whole at a known valuation:

    W0 = the launch memory;   W1 = W0 after the reshape;
    W2 = W1 with the projection call's arrays at what its pipeline leaves (only the feature array changes);
    W3 = W2 with the two result arrays at what the link call's pipeline leaves.

  Each call is a region of the pipeline library entered from the valuation before it and left at the one after it.
  The projection call's four windows stand on four distinct buffers, held at the full share. The link call reads the
  feature array through two windows: its share is dealt left and right on entry and joined again on exit, both windows
  ending at the entry contents (module LinkShare).

  `run_main`: from any memory with zero counters every weakly fair execution terminates, nothing faulting, the two
  results hold what the link call's pipeline leaves, and the three arguments are as launched — at any float instance.
-/
import proofs.«150888_j43379169689769_1_alg».proof.Proof.Word.Proj
import proofs.«150888_j43379169689769_1_alg».proof.Proof.Word.LinkShare
import proofs.«150888_j43379169689769_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => (s₀ m ρ).mem ((c : Dev nD), b)
/-- After the reshape of the bias: the projection call's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the link call's entry. -/
abbrev V2 : (c : Dev nD) → (b : Ref sig .tc) → Buf (Elt F) ((c : Thread nD τ).loc b) := fun c b => W2 m ρ c b
theorem proj_left (c : Dev nD) (w : Fin cfg0.W) : (Proj.dat (V1 m ρ) c).arrAt w cfg0.N = V2 m ρ c (Pipeline.arrRef spec0 w) :=
  (W2_arr m ρ c w).symm
theorem proj_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the link call's exit: the two result arrays at what the pipeline leaves, every other buffer as entered. -/
def W3 (c : Dev nD) : Valuation τ sig (Elt F) :=
  Function.update (Function.update (W2 m ρ c) (Proc.devRef .tc main_v2_0) ((Link.dat (V2 m ρ) c).arrAt 2 cfg1.N))
    (Proc.devRef .tc main_v2_1) ((Link.dat (V2 m ρ) c).arrAt 3 cfg1.N)
abbrev V3 : (c : Dev nD) → (b : Ref sig .tc) → Buf (Elt F) ((c : Thread nD τ).loc b) := fun c b => W3 m ρ c b
theorem W3_nf (c : Dev nD) : W3 m ρ c (Proc.devRef .tc main_v2_1) = (Link.dat (V2 m ρ) c).arrAt 3 cfg1.N := by
  unfold W3; exact Function.update_self ..
theorem W3_lp (c : Dev nD) : W3 m ρ c (Proc.devRef .tc main_v2_0) = (Link.dat (V2 m ρ) c).arrAt 2 cfg1.N := by
  unfold W3
  rw [Function.update_of_ne (StableHlo.devRef_ne_of_ne (by decide) : (Proc.devRef .tc main_v2_0 : DevRef τ sig) ≠ Proc.devRef .tc main_v2_1)]
  exact Function.update_self ..
theorem W3_of_ne (c : Dev nD) (b : Ref sig .tc) (h0 : b ≠ main_v2_0) (h1 : b ≠ main_v2_1) :
    W3 m ρ c (Proc.devRef .tc b) = W2 m ρ c (Proc.devRef .tc b) := by
  unfold W3
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]
theorem link_rest (c : Dev nD) : ∀ b, b ∉ Finset.univ.image (Pipeline.arrRef spec1) → V3 m ρ c b = V2 m ρ c b :=
  fun b hb => W3_of_ne m ρ c b
    (fun e => hb (Finset.mem_image.mpr ⟨2, Finset.mem_univ _, (show Pipeline.arrRef spec1 2 = main_v2_0 from rfl).trans e.symm⟩))
    (fun e => hb (Finset.mem_image.mpr ⟨3, Finset.mem_univ _, (show Pipeline.arrRef spec1 3 = main_v2_1 from rfl).trans e.symm⟩))

/-! ## What the calls are entered from, in the launch memory's terms -/

/-- The reshape writes only the bias row. -/
theorem W1_of (c : Dev nD) (r : Ref sig .tc) (h : r ∉ hostOps0_W) : W1 m ρ c r = m ((c : Thread nD τ).loc r) :=
  StableHlo.after_of_writes_sub hostOps0 _ hostOps0_writes h
theorem V1_x (c : Dev nD) : V1 m ρ c main_arg0 = m ((c : Thread nD τ).loc main_arg0) := W1_of m ρ c main_arg0 (by decide)
theorem V1_w (c : Dev nD) : V1 m ρ c main_arg1 = m ((c : Thread nD τ).loc main_arg1) := W1_of m ρ c main_arg1 (by decide)
/-- The link call is entered with the feature array at what the projection call's pipeline left. -/
theorem V2_feat (c : Dev nD) : V2 m ρ c main_v1 = (Proj.dat (V1 m ρ) c).arrAt 3 cfg0.N := W2_arr m ρ c 3

/-- The arguments end as launched: no item writes one. -/
theorem W3_x (c : Dev nD) : W3 m ρ c (Proc.devRef .tc main_arg0) = m ((c : Thread nD τ).loc main_arg0) :=
  (W3_of_ne m ρ c main_arg0 (by decide) (by decide)).trans <|
    ((W2_arr m ρ c 0).trans (((Proj.dat (V1 m ρ) c).arrAt_in 0 rfl _).trans (Proj.dat_A (V1 m ρ) c 0))).trans (V1_x m ρ c)
theorem W3_w (c : Dev nD) : W3 m ρ c (Proc.devRef .tc main_arg1) = m ((c : Thread nD τ).loc main_arg1) :=
  (W3_of_ne m ρ c main_arg1 (by decide) (by decide)).trans <|
    ((W2_arr m ρ c 1).trans (((Proj.dat (V1 m ρ) c).arrAt_in 1 rfl _).trans (Proj.dat_A (V1 m ρ) c 1))).trans (V1_w m ρ c)
theorem W3_b (c : Dev nD) : W3 m ρ c (Proc.devRef .tc main_arg2) = m ((c : Thread nD τ).loc main_arg2) :=
  (W3_of_ne m ρ c main_arg2 (by decide) (by decide)).trans <|
    (W2_of_ne m ρ c main_arg2 (by decide)).trans (W1_of m ρ c main_arg2 (by decide))

/-! ## The proof data family and the thread state -/

/-- Each pipeline's proof data, at its call's entry contents: a literal match, so that the library's pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Link.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The reshape as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W3`, the generator register at some state. -/
abbrev Tₙ (c : Dev nD) : sProp 𝕄 := iprop(StableHlo.held (c : Thread nD τ) (Pipeline.ucRefs τ sig) (W3 m ρ c) ∗ ∃ r, prngReg c r)

/-- A core's unscoped buffers are the three buffers behind the link call's windows and the rest. -/
theorem link_bufs_split (c : Dev nD) (V : (b : Ref sig .tc) → Buf (Elt F) ((c : Thread nD τ).loc b)) :
    (unscopedBufs c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) := by
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-! ## The calls as regions -/

set_option backward.isDefEq.respectTransparency.types false in
/-- The projection call: entered from every unscoped buffer at `W1`, left at `W2`. -/
def regProj : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (proj_left m ρ c) (proj_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The link call: entered from every unscoped buffer at `W2`, left at `W3`. Its windows share the feature array, so
    the arrays are dealt out of the three buffers behind them and joined back by this certificate's own two
    entailments (`Link.arrays_in`, `Link.arrays_out`). -/
def regLink : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Link.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V2 m ρ c)) := by
      rw [link_bufs_split c (V2 m ρ c)]
      exact sep_mono (Link.arrays_in (V2 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (unscopedBufs c (V3 m ρ c) : sProp 𝕄) := by
      rw [link_bufs_split c (V3 m ρ c)]
      refine sep_mono (Link.arrays_out (V2 m ρ) c (V3 m ρ c)
        (W3_of_ne m ρ c main_v1 (by decide) (by decide)) (W3_lp m ρ c).symm (W3_nf m ρ c).symm) (Entails.of_eq ?_)
      unfold Pipeline.unscopedRest
      exact bigSep_congr fun b hb => by rw [link_rest m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (regProj m ρ),
    .region (regLink m ρ) ]
theorem main_run (c : Dev nD) : main (F := F) c = Pipeline.Seg.run (segs m ρ) := (main_chain c).trans (by chain_rfl)

set_option backward.isDefEq.respectTransparency.types false in
/-- THE RUN, at any float instance: every weakly fair execution of @main from memory `m` with zero counters terminates,
    nothing faulting; the node features and the link weights end at what the link call's pipeline leaves, and the three
    arguments as launched. -/
theorem run_main : θ_run defs (onTc (τ := τ) (main (F := F))) ⟨m, fun _ => 0, ρ⟩ (fun r => ∀ c : Dev nD,
      r.2.mem ((c.tc : Thread nD τ).loc main_v2_1) = (Link.dat (V2 m ρ) c).arrAt 3 cfg1.N
      ∧ r.2.mem ((c.tc : Thread nD τ).loc main_v2_0) = (Link.dat (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2_1 (by decide))).trans (W3_nf m ρ c),
       (h c _ (mem_uc main_v2_0 (by decide))).trans (W3_lp m ρ c),
       (h c _ (mem_uc main_arg0 (by decide))).trans (W3_x m ρ c),
       (h c _ (mem_uc main_arg1 (by decide))).trans (W3_w m ρ c),
       (h c _ (mem_uc main_arg2 (by decide))).trans (W3_b m ρ c)⟩)

end Cert.Kernel.Run

end
-- ==== Proof.Proj.lean ====
/-
  The projection call as the pipeline runs it. Grid point `t` is batch `t`: the body is handed the batch's
  `2048 × 128` slab of `x`, the whole weight matrix and the bias row, and leaves in the result's staging buffer the
  slab `x_t · Wᵀ + bias` (every row of the product shifted by the same bias row). The weight matrix and the bias row
  are fetched once, at the first point, and stay in place; the slab of `x` and the result slab move with the point.

  Stated here, at any contents `V` the call may be entered from: each window's block at a point read off its array,
  what the one store leaves in the result's buffer as a function of the three input blocks, the body's run on whole
  staging buffers, the pipeline's proof data (inputs left in place, the output at that function, full shares, nothing
  owed) and the body obligation at every grid point.
-/
import proofs.«150888_j43379169689769_1_alg».proof.Proof.Gen.KernelIdeal.Launch
import proofs.«150888_j43379169689769_1_alg».proof.Proof.Gen.KernelIdeal.Skeleton
import proofs.«150888_j43379169689769_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the call is entered from
variable (V : (c : Dev nD) → (b : Ref sig .tc) → Buf (Elt F) ((c : Thread nD τ).loc b))

/-! ## The windows' blocks -/

/-- Window `w`'s block at grid point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The slab of `x` is in its staging buffer at every point (it is fetched at every point). -/
theorem found_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The weight matrix is in its staging buffer at every point: fetched at the first, its block index never moves after. -/
theorem found_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- So is the bias row. -/
theorem found_b_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rX : Rect S1x2048x128 := Rect.unit (s := S1x2048x128) ![0, 0, 0] S1x2048x128.size inb_S1x2048x128_S1x2048x128_0_0_0
abbrev rW : Rect S64x128 := Rect.unit (s := S64x128) ![0, 0] S64x128.size inb_S64x128_S64x128_0_0
abbrev rB : Rect S1x64 := Rect.unit (s := S1x64) ![0, 0] S1x64.size inb_S1x64_S1x64_0_0
abbrev rE : Rect S1x2048x64 := Rect.unit (s := S1x2048x64) ![0, 0, 0] S1x2048x64.size inb_S1x2048x64_S1x2048x64_0_0_0

/-! ## What the body leaves in the result's buffer -/

/-- The result's staging buffer after the body, from the three input blocks: its one store, of the whole buffer. -/
def slab (x0 : Vec F S1x2048x128 .f32) (x1 : Vec F S64x128 .f32) (x2 : Vec F S1x64 .f32) : Vec F S1x2048x64 .f32 :=
  View.canon [⟨rE, k0_pay1 (View.ld x0 rX) (View.ld x1 rW) (View.ld x2 rB)⟩]

/-- The one store covers the buffer. -/
theorem slab_cover (p0 : Vec F S1x2048x64 .f32) (y : S1x2048x64.Idx) :
    ∃ pc ∈ ([⟨rE, p0⟩] : List (View.Piece (Elt F) S1x2048x64 .f32)), y ∈ pc.1.set :=
  View.cover_of_tiled [⟨rE, p0⟩] S1x2048x64.size (by rfl) y

/-! ## The body's run -/

set_option maxHeartbeats 1000000 in
/-- The body on whole staging buffers, the inputs' at `x0`, `x1`, `x2` and the result's at anything, runs to the
    continuation with the inputs as they were and the result's buffer at `slab x0 x1 x2`. -/
theorem run_body (c : Dev nD) (E : Set ℕ) (i : grid0.Coords)
    (arg1 : Memref sig .tc .vmem S1x2048x128 .f32) (harg1 : arg1.IsWhole) (arg2 : Memref sig .tc .vmem S64x128 .f32) (harg2 : arg2.IsWhole)
    (arg3 : Memref sig .tc .vmem S1x64 .f32) (harg3 : arg3.IsWhole) (arg4 : Memref sig .tc .vmem S1x2048x64 .f32) (harg4 : arg4.IsWhole)
    (x0 : Vec F S1x2048x128 .f32) (x1 : Vec F S64x128 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (slab x0 x1 x2)) -∗ K ⟨⟩))
      ⊢ wp frame (wpE (defs₀ (F := F)) Variants.none c none) E (cc0__ex_kernel i arg1 harg1 arg2 harg2 arg3 harg3 arg4 harg4) K := by
  simp only [cc0__ex_kernel_eq_skeleton]; unfold cc0__ex_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (slab_cover _)

/-! ## The pipeline's proof data -/

/-- The proof data of the projection call on core `c`: the arrays as the call finds them; after the body at point `t`
    each input's buffer still at its block and the result's at `slab` of the three blocks; the invariant holds only what
    the body never touches; full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => slab (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_e (c : Dev nD) (t : Fin cfg0.N) :
    (dat V c).after 3 t = slab (blk V c 0 t) (blk V c 1 t) (blk V c 2 t) := by dsimp only [dat]

theorem found_x (c : Dev nD) (t : Fin cfg0.N) (d) : (dat V c).before 0 t d = blk V c 0 t :=
  found_x_of V (dat V c) (dat_A V c 0) (after_x V c) t d
theorem found_w (c : Dev nD) (t : Fin cfg0.N) (d) : (dat V c).before 1 t d = blk V c 1 t :=
  found_w_of V (dat V c) (dat_A V c 1) (after_w V c) t d
theorem found_b (c : Dev nD) (t : Fin cfg0.N) (d) : (dat V c).before 2 t d = blk V c 2 t :=
  found_b_of V (dat V c) (dat_A V c 2) (after_b V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `run_body` applies; the invariant and what the
    core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_x, found_w, found_b]
  rw [show (dat V c).Φ t.succ = (dat V c).Φ t.castSucc from rfl,
    show (dat V c).owesAt () t.succ = (dat V c).owesAt () t.castSucc from rfl,
    after_x, after_w, after_b, after_e]
  iintro ⟨HΦ, Ho, ⟨%d0, H0⟩, ⟨%d1, H1⟩, ⟨%d2, H2⟩, ⟨%d3, H3⟩⟩
  iapply (run_body c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W0, bigSep_W0]
  exact body_at V c t

end Cert.KernelIdeal.Proj

end
-- ==== Proof.Link.lean ====
/-
  The link call as the pipeline runs it. Grid point `(β, r)` is batch `β` and row tile `r` (512 query rows): the body is
  handed the tile's `512 × 64` feature rows and, beside them, ALL `2048 × 64` feature rows of the batch (the keys, fetched
  once per batch and left in place over its four tiles); it leaves the tile's `512 × 2048` link weights in one result
  buffer and its `512 × 64` node features in the other.

  Both inputs are windows on ONE array (the projected features), so the array's full share is dealt between them: the
  query window holds the left half-share, the key window the right; neither writes.

  Stated here, at any contents `V` the call may be entered from: each window's block at a point, what the two stores
  leave as functions of the two input blocks, the body's run on whole staging buffers, the pipeline's proof data and
  the body obligation at every grid point.
-/
import proofs.«150888_j43379169689769_1_alg».proof.Proof.Gen.KernelIdeal.Launch
import proofs.«150888_j43379169689769_1_alg».proof.Proof.Gen.KernelIdeal.Skeleton
import proofs.«150888_j43379169689769_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Link

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the call is entered from
variable (V : (c : Dev nD) → (b : Ref sig .tc) → Buf (Elt F) ((c : Thread nD τ).loc b))

/-! ## The windows' blocks -/

/-- Window `w`'s block at grid point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile is in its staging buffer at every point (it is fetched at every point). -/
theorem found_q_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The batch's keys are in their staging buffer at every point: fetched at a batch's first tile, the block index does
    not move over its other three. -/
theorem found_k_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rQ : Rect S1x512x64 := Rect.unit (s := S1x512x64) ![0, 0, 0] S1x512x64.size inb_S1x512x64_S1x512x64_0_0_0
abbrev rK : Rect S1x2048x64 := Rect.unit (s := S1x2048x64) ![0, 0, 0] S1x2048x64.size inb_S1x2048x64_S1x2048x64_0_0_0
abbrev rL : Rect S1x512x2048 := Rect.unit (s := S1x512x2048) ![0, 0, 0] S1x512x2048.size inb_S1x512x2048_S1x512x2048_0_0_0

/-! ## What the body leaves in the two result buffers -/

/-- The link weights' staging buffer after the body, from the two input blocks: its one store, of the whole buffer. -/
def lpTile (x0 : Vec F S1x512x64 .f32) (x1 : Vec F S1x2048x64 .f32) : Vec F S1x512x2048 .f32 :=
  View.canon [⟨rL, k1_pay3 (View.ld x0 rQ) (View.ld x1 rK)⟩]

/-- The node features' staging buffer after the body. -/
def nfTile (x0 : Vec F S1x512x64 .f32) (x1 : Vec F S1x2048x64 .f32) : Vec F S1x512x64 .f32 :=
  View.canon [⟨rQ, k1_pay4 (View.ld x0 rQ) (View.ld x1 rK)⟩]

theorem lpTile_cover (p0 : Vec F S1x512x2048 .f32) (y : S1x512x2048.Idx) :
    ∃ pc ∈ ([⟨rL, p0⟩] : List (View.Piece (Elt F) S1x512x2048 .f32)), y ∈ pc.1.set :=
  View.cover_of_tiled [⟨rL, p0⟩] S1x512x2048.size (by rfl) y

theorem nfTile_cover (p0 : Vec F S1x512x64 .f32) (y : S1x512x64.Idx) :
    ∃ pc ∈ ([⟨rQ, p0⟩] : List (View.Piece (Elt F) S1x512x64 .f32)), y ∈ pc.1.set :=
  View.cover_of_tiled [⟨rQ, p0⟩] S1x512x64.size (by rfl) y

/-! ## The body's run -/

set_option maxHeartbeats 1000000 in
/-- The body on whole staging buffers, the inputs' at `x0`, `x1` and the results' at anything, runs to the continuation
    with the inputs as they were and the results' buffers at `lpTile x0 x1` and `nfTile x0 x1`. -/
theorem run_body (c : Dev nD) (E : Set ℕ) (i : grid1.Coords)
    (arg2 : Memref sig .tc .vmem S1x512x64 .f32) (harg2 : arg2.IsWhole) (arg3 : Memref sig .tc .vmem S1x2048x64 .f32) (harg3 : arg3.IsWhole)
    (arg4 : Memref sig .tc .vmem S1x512x2048 .f32) (harg4 : arg4.IsWhole) (arg5 : Memref sig .tc .vmem S1x512x64 .f32) (harg5 : arg5.IsWhole)
    (x0 : Vec F S1x512x64 .f32) (x1 : Vec F S1x2048x64 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (lpTile x0 x1) ∗ owns (c : Thread nD τ) arg5 fullShare (nfTile x0 x1)) -∗ K ⟨⟩))
      ⊢ wp frame (wpE (defs₀ (F := F)) Variants.none c none) E (cc1__lp_kernel i arg2 harg2 arg3 harg3 arg4 harg4 arg5 harg5) K := by
  simp only [cc1__lp_kernel_eq_skeleton]; unfold cc1__lp_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (lpTile_cover _)
  iexists _; isplitr
  swap; · iexact H3
  ipureintro
  exact View.read_writes_eq_canon _ _ _ (nfTile_cover _)

/-! ## The pipeline's proof data -/

/-- The proof data of the link call on core `c`: the arrays as the call finds them; after the body at point `t` each
    input's buffer still at its block and each result's at its tile function of the two blocks; the invariant holds only
    what the body never touches; the feature array's share dealt left to the query window and right to the key window;
    nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => lpTile (blk V c 0 t) (blk V c 1 t)
    | ⟨3, _⟩ => nfTile (blk V c 0 t) (blk V c 1 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem dat_A (c : Dev nD) (w : Fin cfg1.W) : (dat V c).A w = V c (Pipeline.arrRef spec1 w) := by
  dsimp only [dat]

theorem after_q (c : Dev nD) (t : Fin cfg1.N) : (dat V c).after 0 t = blk V c 0 t := by dsimp only [dat]
theorem after_k (c : Dev nD) (t : Fin cfg1.N) : (dat V c).after 1 t = blk V c 1 t := by dsimp only [dat]
theorem after_lp (c : Dev nD) (t : Fin cfg1.N) : (dat V c).after 2 t = lpTile (blk V c 0 t) (blk V c 1 t) := by dsimp only [dat]
theorem after_nf (c : Dev nD) (t : Fin cfg1.N) : (dat V c).after 3 t = nfTile (blk V c 0 t) (blk V c 1 t) := by dsimp only [dat]

/-- The shares the windows hold their arrays at. -/
theorem share_q (c : Dev nD) : (dat V c).share 0 = fullShare.left := by unfold Dat.share; rfl
theorem share_k (c : Dev nD) : (dat V c).share 1 = fullShare.right := by unfold Dat.share; rfl
theorem share_lp (c : Dev nD) : (dat V c).share 2 = fullShare := by unfold Dat.share; rfl
theorem share_nf (c : Dev nD) : (dat V c).share 3 = fullShare := by unfold Dat.share; rfl

theorem found_q (c : Dev nD) (t : Fin cfg1.N) (d) : (dat V c).before 0 t d = blk V c 0 t :=
  found_q_of V (dat V c) (dat_A V c 0) (after_q V c) t d
theorem found_k (c : Dev nD) (t : Fin cfg1.N) (d) : (dat V c).before 1 t d = blk V c 1 t :=
  found_k_of V (dat V c) (dat_A V c 1) (after_k V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so `run_body` applies; the invariant and what the
    core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found_q, found_k]
  rw [show (dat V c).Φ t.succ = (dat V c).Φ t.castSucc from rfl,
    show (dat V c).owesAt () t.succ = (dat V c).owesAt () t.castSucc from rfl,
    after_q, after_k, after_lp, after_nf]
  iintro ⟨HΦ, Ho, ⟨%d0, H0⟩, ⟨%d1, H1⟩, ⟨%d2, H2⟩, ⟨%d3, H3⟩⟩
  iapply (run_body c Set.univ _ _ _ _ _ _ _ _ _ (blk V c 0 t) (blk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W1, bigSep_W1]
  exact body_at V c t

end Cert.KernelIdeal.Link

end
-- ==== Proof.LinkShare.lean ====
/-
  The link call's arrays among the core's buffers. The call's four windows stand on THREE buffers: the feature array
  (read twice, through the query window and the key window) and the two result arrays. On entry the feature array's
  full share is dealt out, the left half to the query window and the right half to the key window; neither window
  writes, so on exit both halves still hold the entry contents and join back into the full share.
-/
import proofs.«150888_j43379169689769_1_alg».proof.Proof.Link

set_option maxRecDepth 16384

noncomputable section

namespace Cert.KernelIdeal.Link

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The three buffers behind the four windows, each whole at the full share. -/
theorem arrBufs_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2_0) ↦{fullShare} V main_v2_0)
          ∗ (((c : Thread nD τ).loc main_v2_1) ↦{fullShare} V main_v2_1)) := by
  unfold Pipeline.arrBufs
  exact bigSep_eq_bigSepL_of_eq [main_v1, main_v2_0, main_v2_1] (by decide) (by decide) _

variable (V : (c : Dev nD) → (b : Ref sig .tc) → Buf (Elt F) ((c : Thread nD τ).loc b))

/-- The pipeline's four arrays at contents `G`, window by window at its share. -/
theorem arrays_eq (c : Dev nD) (G : (w : Fin cfg1.W) → Buf (Elt F) ((cfg1.win w).arr.view.loc (c : Thread nD τ))) :
    ((dat V c).arrays G : sProp 𝕄)
      = iprop((((c : Thread nD τ).loc main_v1) ↦{fullShare.left} G 0) ∗ (((c : Thread nD τ).loc main_v1) ↦{fullShare.right} G 1)
          ∗ (((c : Thread nD τ).loc main_v2_0) ↦{fullShare} G 2) ∗ (((c : Thread nD τ).loc main_v2_1) ↦{fullShare} G 3)) := by
  unfold Dat.arrays
  rw [bigSep_W1, (arr_whole1 0).set_eq_univ, (arr_whole1 2).set_eq_univ, (arr_whole1 3).set_eq_univ,
    share_q, share_k, share_lp, share_nf]

/-- ENTRY: the three buffers at the entry contents make the pipeline's arrays at entry, the feature array's share dealt
    left and right. -/
theorem arrays_in (c : Dev nD) :
    (Pipeline.arrBufs (Ix := Unit) (Name := ℕ) (U := UR sig nD τ) (Lvl := ℕ) spec1 c (V c) : sProp 𝕄)
      ⊢ (dat V c).arrays ((dat V c).arrAt · 0) := by
  rw [arrBufs_eq, arrays_eq]
  iintro ⟨He, Hl, Hn⟩
  ihave He' := (pointsTo_share (PosShare.mem_left_op_right fullShare)).1 $$ He
  icases He' with ⟨Ha, Hb⟩
  isplitl [Ha]; · iexact Ha
  isplitl [Hb]; · iexact Hb
  isplitl [Hl]; · iexact Hl
  iexact Hn

/-- EXIT: the pipeline's arrays at exit make the three buffers at any contents `V'` that has the results where the
    pipeline left them and the feature array as entered (both of its windows end at the entry contents). -/
theorem arrays_out (c : Dev nD) (V' : (b : Ref sig .tc) → Buf (Elt F) ((c : Thread nD τ).loc b))
    (he : V' main_v1 = V c main_v1) (hl : (dat V c).arrAt 2 cfg1.N = V' main_v2_0) (hn : (dat V c).arrAt 3 cfg1.N = V' main_v2_1) :
    ((dat V c).arrays ((dat V c).arrAt · cfg1.N) : sProp 𝕄)
      ⊢ Pipeline.arrBufs (Ix := Unit) (Name := ℕ) (U := UR sig nD τ) (Lvl := ℕ) spec1 c V' := by
  rw [arrBufs_eq, arrays_eq, hl, hn, he,
    show (dat V c).arrAt 0 cfg1.N = V c main_v1 from ((dat V c).arrAt_in 0 rfl _).trans (dat_A V c 0),
    show (dat V c).arrAt 1 cfg1.N = V c main_v1 from ((dat V c).arrAt_in 1 rfl _).trans (dat_A V c 1)]
  iintro ⟨Ha, Hb, Hl, Hn⟩
  isplitl [Ha Hb]
  · iapply (pointsTo_share (PosShare.mem_left_op_right fullShare)).2
    isplitl [Ha]; · iexact Ha
    iexact Hb
  isplitl [Hl]; · iexact Hl
  iexact Hn

end Cert.KernelIdeal.Link

end
-- ==== Proof.Run.lean ====
/-
  The whole program's run. `@main` is: one host operation (the bias vector reshaped to a `1 × 64` row), the projection
  call, the link call. Between items core `c` holds every unscoped buffer whole at a known valuation:

    W0 = the launch memory;   W1 = W0 after the reshape;
    W2 = W1 with the projection call's arrays at what its pipeline leaves (only the feature array changes);
    W3 = W2 with the two result arrays at what the link call's pipeline leaves.

  Each call is a region of the pipeline library entered from the valuation before it and left at the one after it.
  The projection call's four windows stand on four distinct buffers, held at the full share. The link call reads the
  feature array through two windows: its share is dealt left and right on entry and joined again on exit, both windows
  ending at the entry contents (module LinkShare).

  `run_main`: from any memory with zero counters every weakly fair execution terminates, nothing faulting, the two
  results hold what the link call's pipeline leaves, and the three arguments are as launched — at any float instance.
-/
import proofs.«150888_j43379169689769_1_alg».proof.Proof.Proj
import proofs.«150888_j43379169689769_1_alg».proof.Proof.LinkShare
import proofs.«150888_j43379169689769_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => (s₀ m ρ).mem ((c : Dev nD), b)
/-- After the reshape of the bias: the projection call's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the link call's entry. -/
abbrev V2 : (c : Dev nD) → (b : Ref sig .tc) → Buf (Elt F) ((c : Thread nD τ).loc b) := fun c b => W2 m ρ c b
theorem proj_left (c : Dev nD) (w : Fin cfg0.W) : (Proj.dat (V1 m ρ) c).arrAt w cfg0.N = V2 m ρ c (Pipeline.arrRef spec0 w) :=
  (W2_arr m ρ c w).symm
theorem proj_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the link call's exit: the two result arrays at what the pipeline leaves, every other buffer as entered. -/
def W3 (c : Dev nD) : Valuation τ sig (Elt F) :=
  Function.update (Function.update (W2 m ρ c) (Proc.devRef .tc main_v2_0) ((Link.dat (V2 m ρ) c).arrAt 2 cfg1.N))
    (Proc.devRef .tc main_v2_1) ((Link.dat (V2 m ρ) c).arrAt 3 cfg1.N)
abbrev V3 : (c : Dev nD) → (b : Ref sig .tc) → Buf (Elt F) ((c : Thread nD τ).loc b) := fun c b => W3 m ρ c b
theorem W3_nf (c : Dev nD) : W3 m ρ c (Proc.devRef .tc main_v2_1) = (Link.dat (V2 m ρ) c).arrAt 3 cfg1.N := by
  unfold W3; exact Function.update_self ..
theorem W3_lp (c : Dev nD) : W3 m ρ c (Proc.devRef .tc main_v2_0) = (Link.dat (V2 m ρ) c).arrAt 2 cfg1.N := by
  unfold W3
  rw [Function.update_of_ne (StableHlo.devRef_ne_of_ne (by decide) : (Proc.devRef .tc main_v2_0 : DevRef τ sig) ≠ Proc.devRef .tc main_v2_1)]
  exact Function.update_self ..
theorem W3_of_ne (c : Dev nD) (b : Ref sig .tc) (h0 : b ≠ main_v2_0) (h1 : b ≠ main_v2_1) :
    W3 m ρ c (Proc.devRef .tc b) = W2 m ρ c (Proc.devRef .tc b) := by
  unfold W3
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]
theorem link_rest (c : Dev nD) : ∀ b, b ∉ Finset.univ.image (Pipeline.arrRef spec1) → V3 m ρ c b = V2 m ρ c b :=
  fun b hb => W3_of_ne m ρ c b
    (fun e => hb (Finset.mem_image.mpr ⟨2, Finset.mem_univ _, (show Pipeline.arrRef spec1 2 = main_v2_0 from rfl).trans e.symm⟩))
    (fun e => hb (Finset.mem_image.mpr ⟨3, Finset.mem_univ _, (show Pipeline.arrRef spec1 3 = main_v2_1 from rfl).trans e.symm⟩))

/-! ## What the calls are entered from, in the launch memory's terms -/

/-- The reshape writes only the bias row. -/
theorem W1_of (c : Dev nD) (r : Ref sig .tc) (h : r ∉ hostOps0_W) : W1 m ρ c r = m ((c : Thread nD τ).loc r) :=
  StableHlo.after_of_writes_sub hostOps0 _ hostOps0_writes h
theorem V1_x (c : Dev nD) : V1 m ρ c main_arg0 = m ((c : Thread nD τ).loc main_arg0) := W1_of m ρ c main_arg0 (by decide)
theorem V1_w (c : Dev nD) : V1 m ρ c main_arg1 = m ((c : Thread nD τ).loc main_arg1) := W1_of m ρ c main_arg1 (by decide)
/-- The link call is entered with the feature array at what the projection call's pipeline left. -/
theorem V2_feat (c : Dev nD) : V2 m ρ c main_v1 = (Proj.dat (V1 m ρ) c).arrAt 3 cfg0.N := W2_arr m ρ c 3

/-- The arguments end as launched: no item writes one. -/
theorem W3_x (c : Dev nD) : W3 m ρ c (Proc.devRef .tc main_arg0) = m ((c : Thread nD τ).loc main_arg0) :=
  (W3_of_ne m ρ c main_arg0 (by decide) (by decide)).trans <|
    ((W2_arr m ρ c 0).trans (((Proj.dat (V1 m ρ) c).arrAt_in 0 rfl _).trans (Proj.dat_A (V1 m ρ) c 0))).trans (V1_x m ρ c)
theorem W3_w (c : Dev nD) : W3 m ρ c (Proc.devRef .tc main_arg1) = m ((c : Thread nD τ).loc main_arg1) :=
  (W3_of_ne m ρ c main_arg1 (by decide) (by decide)).trans <|
    ((W2_arr m ρ c 1).trans (((Proj.dat (V1 m ρ) c).arrAt_in 1 rfl _).trans (Proj.dat_A (V1 m ρ) c 1))).trans (V1_w m ρ c)
theorem W3_b (c : Dev nD) : W3 m ρ c (Proc.devRef .tc main_arg2) = m ((c : Thread nD τ).loc main_arg2) :=
  (W3_of_ne m ρ c main_arg2 (by decide) (by decide)).trans <|
    (W2_of_ne m ρ c main_arg2 (by decide)).trans (W1_of m ρ c main_arg2 (by decide))

/-! ## The proof data family and the thread state -/

/-- Each pipeline's proof data, at its call's entry contents: a literal match, so that the library's pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Link.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The reshape as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W3`, the generator register at some state. -/
abbrev Tₙ (c : Dev nD) : sProp 𝕄 := iprop(StableHlo.held (c : Thread nD τ) (Pipeline.ucRefs τ sig) (W3 m ρ c) ∗ ∃ r, prngReg c r)

/-- A core's unscoped buffers are the three buffers behind the link call's windows and the rest. -/
theorem link_bufs_split (c : Dev nD) (V : (b : Ref sig .tc) → Buf (Elt F) ((c : Thread nD τ).loc b)) :
    (unscopedBufs c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) := by
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-! ## The calls as regions -/

set_option backward.isDefEq.respectTransparency.types false in
/-- The projection call: entered from every unscoped buffer at `W1`, left at `W2`. -/
def regProj : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (proj_left m ρ c) (proj_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The link call: entered from every unscoped buffer at `W2`, left at `W3`. Its windows share the feature array, so
    the arrays are dealt out of the three buffers behind them and joined back by this certificate's own two
    entailments (`Link.arrays_in`, `Link.arrays_out`). -/
def regLink : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Link.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V2 m ρ c)) := by
      rw [link_bufs_split c (V2 m ρ c)]
      exact sep_mono (Link.arrays_in (V2 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (unscopedBufs c (V3 m ρ c) : sProp 𝕄) := by
      rw [link_bufs_split c (V3 m ρ c)]
      refine sep_mono (Link.arrays_out (V2 m ρ) c (V3 m ρ c)
        (W3_of_ne m ρ c main_v1 (by decide) (by decide)) (W3_lp m ρ c).symm (W3_nf m ρ c).symm) (Entails.of_eq ?_)
      unfold Pipeline.unscopedRest
      exact bigSep_congr fun b hb => by rw [link_rest m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (regProj m ρ),
    .region (regLink m ρ) ]
theorem main_run (c : Dev nD) : main (F := F) c = Pipeline.Seg.run (segs m ρ) := (main_chain c).trans (by chain_rfl)

set_option backward.isDefEq.respectTransparency.types false in
/-- THE RUN, at any float instance: every weakly fair execution of @main from memory `m` with zero counters terminates,
    nothing faulting; the node features and the link weights end at what the link call's pipeline leaves, and the three
    arguments as launched. -/
theorem run_main : θ_run defs (onTc (τ := τ) (main (F := F))) ⟨m, fun _ => 0, ρ⟩ (fun r => ∀ c : Dev nD,
      r.2.mem ((c.tc : Thread nD τ).loc main_v2_1) = (Link.dat (V2 m ρ) c).arrAt 3 cfg1.N
      ∧ r.2.mem ((c.tc : Thread nD τ).loc main_v2_0) = (Link.dat (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2_1 (by decide))).trans (W3_nf m ρ c),
       (h c _ (mem_uc main_v2_0 (by decide))).trans (W3_lp m ρ c),
       (h c _ (mem_uc main_arg0 (by decide))).trans (W3_x m ρ c),
       (h c _ (mem_uc main_arg1 (by decide))).trans (W3_w m ρ c),
       (h c _ (mem_uc main_arg2 (by decide))).trans (W3_b m ρ c)⟩)

end Cert.KernelIdeal.Run

end
-- ==== Proof.Spec.lean ====
/-
  What the network computes, as functions of the three argument arrays, entry by entry on the extended reals.

  * `proj`: the projected features, `e[β, n, o] = Σ_k x[β, n, k] · W[o, k] + bias[o]`.
  * `link`: the link weights, `lp[β, i, j] = max (tanh (Σ_c e[β, i, c] · e[β, j, c])) 0`: the rectified `tanh` of the Gram
    matrix of batch `β`'s feature rows.
  * `feat`: the node features, `nf[β, i, c] = (Σ_j lp[β, i, j] · e[β, j, c]) · 2⁻¹¹`: each row's link-weighted mean of the
    feature rows, the mean over the `2048 = 2¹¹` neighbours taken as a product with the reciprocal.

  Sums are finite sums in the extended reals, where addition and multiplication are commutative and associative, so no
  order of accumulation and no tiling is left in them. The one law between the two programs is at the bottom:
  multiplying by `2⁻¹¹` is dividing by `2¹¹`, on every extended real (no finiteness is needed for it).

  Every function is defined through its value at explicit coordinates (`…At`), the array form re-wrapping an index's
  coordinates, so that reading an array form at `ix3 β n o` is the coordinate form by `rfl`.
-/
import Idealize.ShloMosaic.PureOps.Ideal
import Idealize.ShloMosaic.Lib.ValueIdx

noncomputable section

namespace Cert.Spec

open Idealize.ShloMosaic Idealize.ShloMosaic.ValueIdx

abbrev SX : Shape := ⟨3, ![8, 2048, 128]⟩
abbrev SW : Shape := ⟨2, ![64, 128]⟩
abbrev SB : Shape := ⟨1, ![64]⟩
abbrev SRow : Shape := ⟨2, ![1, 64]⟩
abbrev SE : Shape := ⟨3, ![8, 2048, 64]⟩
abbrev SL : Shape := ⟨3, ![8, 2048, 2048]⟩

/-- The zero both programs rectify against, and the kernel's reciprocal of the neighbour count, as the words they print. -/
abbrev zeroWord : Ideal .f32 := Ideal.ofBits .f32 0x00000000#32
abbrev recipWord : Ideal .f32 := Ideal.ofBits .f32 0x3A000000#32
abbrev countWord : Ideal .f32 := Ideal.ofBits .f32 0x45000000#32

/-! ## The projected features -/

def projAt (x : FVec Ideal SX .f32) (w : FVec Ideal SW .f32) (b : FVec Ideal SB .f32) (β : Fin 8) (n : Fin 2048) (o : Fin 64) : Ideal .f32 :=
  (∑ k : Fin 128, x (ix3 β n k) * w (ix2 o k)) + b (ix1 o)

def proj (x : FVec Ideal SX .f32) (w : FVec Ideal SW .f32) (b : FVec Ideal SB .f32) : FVec Ideal SE .f32 :=
  fun i => projAt x w b ⟨(i 0).val, (i 0).isLt⟩ ⟨(i 1).val, (i 1).isLt⟩ ⟨(i 2).val, (i 2).isLt⟩

theorem proj_ix3 (x : FVec Ideal SX .f32) (w : FVec Ideal SW .f32) (b : FVec Ideal SB .f32) (β : Fin 8) (n : Fin 2048) (o : Fin 64) :
    proj x w b (ix3 β n o) = projAt x w b β n o := rfl

/-- The bias as the kernel is handed it: a `1 × 64` row. -/
def unrow (r : FVec Ideal SRow .f32) : FVec Ideal SB .f32 := fun i => r (ix2 (0 : Fin 1) ⟨(i 0).val, (i 0).isLt⟩)

theorem unrow_ix1 (r : FVec Ideal SRow .f32) (o : Fin 64) : unrow r (ix1 o) = r (ix2 (0 : Fin 1) o) := rfl

/-! ## The link weights -/

def gramAt (e : FVec Ideal SE .f32) (β : Fin 8) (i j : Fin 2048) : Ideal .f32 :=
  ∑ c : Fin 64, e (ix3 β i c) * e (ix3 β j c)

def linkAt (e : FVec Ideal SE .f32) (β : Fin 8) (i j : Fin 2048) : Ideal .f32 :=
  max (Ideal.tanh (gramAt e β i j)) zeroWord

def link (e : FVec Ideal SE .f32) : FVec Ideal SL .f32 :=
  fun q => linkAt e ⟨(q 0).val, (q 0).isLt⟩ ⟨(q 1).val, (q 1).isLt⟩ ⟨(q 2).val, (q 2).isLt⟩

theorem link_ix3 (e : FVec Ideal SE .f32) (β : Fin 8) (i j : Fin 2048) : link e (ix3 β i j) = linkAt e β i j := rfl

/-! ## The node features -/

def featAt (e : FVec Ideal SE .f32) (l : FVec Ideal SL .f32) (β : Fin 8) (i : Fin 2048) (c : Fin 64) : Ideal .f32 :=
  (∑ j : Fin 2048, l (ix3 β i j) * e (ix3 β j c)) * recipWord

def feat (e : FVec Ideal SE .f32) (l : FVec Ideal SL .f32) : FVec Ideal SE .f32 :=
  fun q => featAt e l ⟨(q 0).val, (q 0).isLt⟩ ⟨(q 1).val, (q 1).isLt⟩ ⟨(q 2).val, (q 2).isLt⟩

theorem feat_ix3 (e : FVec Ideal SE .f32) (l : FVec Ideal SL .f32) (β : Fin 8) (i : Fin 2048) (c : Fin 64) :
    feat e l (ix3 β i c) = featAt e l β i c := rfl

/-! ## The one law: a product with `2⁻¹¹` is a quotient by `2¹¹` -/

/-- The kernel's word `0x3A000000` is exactly `2⁻¹¹ = 1/2048`. -/
theorem recipWord_eq : recipWord = ((1 / 2048 : ℝ) : EReal) := by
  simp [recipWord, Ideal.ofBits, Ideal.ieee, -EReal.coe_mul]; norm_num

/-- The reference's word `0x45000000` is exactly `2¹¹ = 2048`. -/
theorem countWord_eq : countWord = ((2048 : ℝ) : EReal) := by
  simp [countWord, Ideal.ofBits, Ideal.ieee, -EReal.coe_mul]; norm_num

/-- Dividing by the neighbour count is multiplying by its reciprocal, on every extended real. -/
theorem div_count (y : Ideal .f32) : Ideal.div y countWord = y * recipWord := by
  rw [countWord_eq, recipWord_eq]
  exact Ideal.div_coe (by norm_num : (2048 : ℝ) ≠ 0) y

end Cert.Spec

end
-- ==== Proof.ProjPayload.lean ====
/-
  The projection body's arithmetic at an entry: row `n` of the slab times row `o` of the weight matrix, plus the bias.
-/
import proofs.«150888_j43379169689769_1_alg».proof.Proof.Gen.KernelIdeal.Skeleton
import proofs.«150888_j43379169689769_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjPayload

open Idealize.ShloMosaic Idealize.ShloMosaic.ValueIdx
open Cert.KernelIdeal Cert.KernelIdeal.Gen

/-! ## The contraction's two index maps, axis by axis

The product contracts axis 1 of the left operand with axis 1 of the right one; the result's two axes are the
operands' free axes 0. Each coordinate of each operand index is read off the dimension record once. -/

/-- The left operand's row is the result's row. -/
theorem lhs_proj_0 (i : S2048x64.Idx) (q : dot_S2048x128_S64x128_S2048x64_1_1_0_0_n_n.contr.Idx) :
    (dot_S2048x128_S64x128_S2048x64_1_1_0_0_n_n.lhsIdx i q 0).val = (i 0).val := by
  unfold DotDims.lhsIdx
  rw [dif_neg (show ¬(0 : Fin S2048x128.rank) ∈ dot_S2048x128_S64x128_S2048x64_1_1_0_0_n_n.lhsBatch by decide), dif_pos (show (0 : Fin S2048x128.rank) ∈ dot_S2048x128_S64x128_S2048x64_1_1_0_0_n_n.lhsNonContracting by decide)]
  rfl

/-- The left operand's column is the summation index. -/
theorem lhs_proj_1 (i : S2048x64.Idx) (q : dot_S2048x128_S64x128_S2048x64_1_1_0_0_n_n.contr.Idx) :
    (dot_S2048x128_S64x128_S2048x64_1_1_0_0_n_n.lhsIdx i q 1).val = (q ⟨0, by decide⟩).val :=
  dot_S2048x128_S64x128_S2048x64_1_1_0_0_n_n.lhsIdx_val_of_single rfl i q

/-- The right operand's row is the result's column. -/
theorem rhs_proj_0 (i : S2048x64.Idx) (q : dot_S2048x128_S64x128_S2048x64_1_1_0_0_n_n.contr.Idx) :
    (dot_S2048x128_S64x128_S2048x64_1_1_0_0_n_n.rhsIdx i q 0).val = (i 1).val := by
  unfold DotDims.rhsIdx
  rw [dif_neg (show ¬(0 : Fin S64x128.rank) ∈ dot_S2048x128_S64x128_S2048x64_1_1_0_0_n_n.rhsBatch by decide), dif_pos (show (0 : Fin S64x128.rank) ∈ dot_S2048x128_S64x128_S2048x64_1_1_0_0_n_n.rhsNonContracting by decide)]
  rfl

/-- The right operand's column is the summation index. -/
theorem rhs_proj_1 (i : S2048x64.Idx) (q : dot_S2048x128_S64x128_S2048x64_1_1_0_0_n_n.contr.Idx) :
    (dot_S2048x128_S64x128_S2048x64_1_1_0_0_n_n.rhsIdx i q 1).val = (q ⟨0, by decide⟩).val :=
  dot_S2048x128_S64x128_S2048x64_1_1_0_0_n_n.rhsIdx_val_of_single rfl i q

/-! ## The product into the zero accumulator, at an entry -/

/-- Entry `(n, o)` of `l · rᵀ` accumulated into zero is the inner product of row `n` of `l` with row `o` of `r`. -/
theorem matmul_at (l : FVec Ideal S2048x128 .bf16) (r : FVec Ideal S64x128 .bf16) (n : Fin 2048) (o : Fin 64) :
    matmul (F := Ideal) dot_S2048x128_S64x128_S2048x64_1_1_0_0_n_n none l r (constant (F := Ideal) S2048x64 .f32 0x00000000#32) (ix2 n o)
      = ∑ k : Fin 128, l (ix2 n k) * r (ix2 o k) := by
  refine (Ideal.matmul_constant_zero_apply dot_S2048x128_S64x128_S2048x64_1_1_0_0_n_n none l r (ix2 n o)).trans ?_
  rw [← Equiv.sum_comp (ValueIdx.contrEquiv1 dot_S2048x128_S64x128_S2048x64_1_1_0_0_n_n 128 rfl rfl).symm]
  refine Finset.sum_congr rfl fun k _ => ?_
  have hk := ValueIdx.contrEquiv1_symm_val dot_S2048x128_S64x128_S2048x64_1_1_0_0_n_n 128 rfl rfl k
  have el : dot_S2048x128_S64x128_S2048x64_1_1_0_0_n_n.lhsIdx (ix2 n o) ((ValueIdx.contrEquiv1 dot_S2048x128_S64x128_S2048x64_1_1_0_0_n_n 128 rfl rfl).symm k) = ix2 n k := funext fun a => Fin.ext (by
    match a with
    | ⟨0, _⟩ => exact lhs_proj_0 _ _
    | ⟨1, _⟩ => exact (lhs_proj_1 _ _).trans hk)
  have er : dot_S2048x128_S64x128_S2048x64_1_1_0_0_n_n.rhsIdx (ix2 n o) ((ValueIdx.contrEquiv1 dot_S2048x128_S64x128_S2048x64_1_1_0_0_n_n 128 rfl rfl).symm k) = ix2 o k := funext fun a => Fin.ext (by
    match a with
    | ⟨0, _⟩ => exact rhs_proj_0 _ _
    | ⟨1, _⟩ => exact (rhs_proj_1 _ _).trans hk)
  rw [el, er]

/-! ## The body's value at an entry -/

/-- The one store's value at entry `(0, n, o)` of the slab, from the three loaded blocks. -/
theorem e_at (x0 : Vec Ideal S1x2048x128 .f32) (x1 : Vec Ideal S64x128 .f32) (x2 : Vec Ideal S1x64 .f32) (n : Fin 2048) (o : Fin 64) :
    k0_pay1 (F := Ideal) x0 x1 x2 (ix3 (0 : Fin 1) n o)
      = (∑ k : Fin 128, x0 (ix3 (0 : Fin 1) n k) * x1 (ix2 o k)) + x2 (ix2 (0 : Fin 1) o) := by
  unfold k0_pay1
  -- the stored slab is the sum matrix with a unit axis in front
  refine (shapeCast_ab_1ab_apply _ shapeCasts_S2048x64_S1x2048x64 (0 : Fin 1) n o).trans ?_
  -- a sum of two matrices at an entry
  refine (addf_apply _ _ (ix2 n o)).trans ?_
  -- the bias row, cast to its own shape and repeated over the rows, is read at its column
  have hb : broadcastTo S2048x64 (shapeCast S1x64 x2 shapeCasts_S1x64_S1x64) broadcasts_S1x64_S2048x64 (ix2 n o)
      = x2 (ix2 (0 : Fin 1) o) :=
    (broadcastTo_1b_ab_apply _ broadcasts_S1x64_S2048x64 n o).trans
      (congrFun (shapeCast_self x2 shapeCasts_S1x64_S1x64) (ix2 (0 : Fin 1) o))
  -- the product, whose operands are the slab without its unit axis and the weight matrix, both unchanged by the narrowing
  have hm := matmul_at (truncf .bf16 (shapeCast S2048x128 x0 shapeCasts_S1x2048x128_S2048x128) bitsLt_bf16_f32)
    (truncf .bf16 x1 bitsLt_bf16_f32) n o
  refine (congrArg₂ (· + ·) hm hb).trans ?_
  refine congrArg (· + x2 (ix2 (0 : Fin 1) o)) (Finset.sum_congr rfl fun k _ => ?_)
  exact congrArg (· * x1 (ix2 o k)) (shapeCast_1ab_ab_apply x0 shapeCasts_S1x2048x128_S2048x128 n k)

end Cert.KernelIdeal.ProjPayload

end
-- ==== Proof.ProjValue.lean ====
/-
  The projection call's result array, entry by entry: after all eight grid points the array holds `Spec.proj` of the
  three arrays the call was entered from (batch `β`'s slab is what point `β` wrote back, and the eight slabs tile the array).

  The steps. Each window's block index at a point is decided once over the eight points: the slab of `x` and the
  result slab sit at block `(t, 0, 0)`, the weight matrix and the bias row at block zero. So entry `(0, n, k)` of the
  `x` block at point `t` is `x[t, n, k]`, the weight and bias blocks are the arrays themselves, and entry `(0, n, o)`
  of the result block lies at `(t, n, o)` of the result array. The body's one store covers its buffer, so the slab it
  leaves is its payload, whose entry `(0, n, o)` is `Σ_k x[t, n, k] · W[o, k] + bias[o]`: what point `t` writes back is
  block `t` of `Spec.proj`. Every entry `(β, n, o)` of the result array lies in point `β`'s block and every point
  writes back, so the array ends holding `Spec.proj`.
-/
import proofs.«150888_j43379169689769_1_alg».proof.Proof.Proj
import proofs.«150888_j43379169689769_1_alg».proof.Proof.Spec
import proofs.«150888_j43379169689769_1_alg».proof.Proof.ProjPayload
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjValue

open Idealize.ShloMosaic Idealize.ShloMosaic.TcCoe Idealize.ShloMosaic.ValueIdx Idealize.SL.Sem
open Cert.KernelIdeal Cert.KernelIdeal.Gen

/-! ## Offsets, block indices, batch numbers -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the eight points: the slab of `x` and the result slab are at block
    `(t, 0, 0)`; the weight matrix and the bias row are at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Grid point `t` as a batch number. -/
def bat (t : Fin cfg0.N) : Fin 8 := ⟨t.val, lt_of_lt_of_eq t.isLt N_0⟩

theorem bat_val (t : Fin cfg0.N) : (bat t).val = t.val := rfl

variable (V : (c : Dev nD) → (b : Ref sig .tc) → Buf (Elt Ideal) ((c : Thread nD τ).loc b))

/-! ## The arrays and the blocks, at their literal types -/

/-- The arrays the call is entered from: `x`, the weight matrix, the bias row. -/
abbrev xarr (c : Dev nD) : Vec Ideal S8x2048x128 .f32 := V c main_arg0
abbrev warr (c : Dev nD) : Vec Ideal S64x128 .f32 := V c main_arg1
abbrev barr (c : Dev nD) : Vec Ideal S1x64 .f32 := V c main_v0

/-- The three input blocks at a point. -/
abbrev xblk (c : Dev nD) (t : Fin cfg0.N) : Vec Ideal S1x2048x128 .f32 := Proj.blk V c 0 t
abbrev wblk (c : Dev nD) (t : Fin cfg0.N) : Vec Ideal S64x128 .f32 := Proj.blk V c 1 t
abbrev bblk (c : Dev nD) (t : Fin cfg0.N) : Vec Ideal S1x64 .f32 := Proj.blk V c 2 t

/-! ## Each block read off its array

A block's coordinate on an axis is its block index times the block's extent plus the coordinate inside the block. -/

/-- Entry `(0, n, k)` of the `x` block at point `t` is `x[t, n, k]`. -/
theorem xblk_at (c : Dev nD) (t : Fin cfg0.N) (n : Fin 2048) (k : Fin 128) :
    xblk V c t (ix3 (0 : Fin 1) n k) = xarr V c (ix3 (bat t) n k) := by
  obtain ⟨e0, e1, e2, -⟩ := idx_facts t
  unfold xblk Proj.blk
  rw [View.read_apply]
  show V c main_arg0 (((cfg0.win 0).blk t).view.emb (ix3 (0 : Fin 1) n k)) = V c main_arg0 (ix3 (bat t) n k)
  congr 1
  funext a
  apply Fin.ext
  match a with
  | ⟨0, _⟩ => show win0_0.index t (0 : Fin 3) * 1 + 1 * (0 : Fin 1).val = t.val; rw [e0]; simp
  | ⟨1, _⟩ => show win0_0.index t (1 : Fin 3) * 2048 + 1 * n.val = n.val; rw [e1]; omega
  | ⟨2, _⟩ => show win0_0.index t (2 : Fin 3) * 128 + 1 * k.val = k.val; rw [e2]; omega

/-- The weight block at any point is the weight matrix. -/
theorem wblk_at (c : Dev nD) (t : Fin cfg0.N) (o : Fin 64) (k : Fin 128) :
    wblk V c t (ix2 o k) = warr V c (ix2 o k) := by
  obtain ⟨-, -, -, e0, e1, -⟩ := idx_facts t
  unfold wblk Proj.blk
  rw [View.read_apply]
  show V c main_arg1 (((cfg0.win 1).blk t).view.emb (ix2 o k)) = V c main_arg1 (ix2 o k)
  congr 1
  funext a
  apply Fin.ext
  match a with
  | ⟨0, _⟩ => show win0_1.index t (0 : Fin 2) * 64 + 1 * o.val = o.val; rw [e0]; omega
  | ⟨1, _⟩ => show win0_1.index t (1 : Fin 2) * 128 + 1 * k.val = k.val; rw [e1]; omega

/-- The bias block at any point is the bias row. -/
theorem bblk_at (c : Dev nD) (t : Fin cfg0.N) (o : Fin 64) :
    bblk V c t (ix2 (0 : Fin 1) o) = barr V c (ix2 (0 : Fin 1) o) := by
  obtain ⟨-, -, -, -, -, e0, e1, -⟩ := idx_facts t
  unfold bblk Proj.blk
  rw [View.read_apply]
  show V c main_v0 (((cfg0.win 2).blk t).view.emb (ix2 (0 : Fin 1) o)) = V c main_v0 (ix2 (0 : Fin 1) o)
  congr 1
  funext a
  apply Fin.ext
  match a with
  | ⟨0, _⟩ => show win0_2.index t (0 : Fin 2) * 1 + 1 * (0 : Fin 1).val = (0 : Fin 1).val; rw [e0]; omega
  | ⟨1, _⟩ => show win0_2.index t (1 : Fin 2) * 64 + 1 * o.val = o.val; rw [e1]; omega

/-- Entry `(0, n, o)` of the result's block at point `t` lies at `(t, n, o)` of the result array. -/
theorem eblk_emb (t : Fin cfg0.N) (n : Fin 2048) (o : Fin 64) :
    ((cfg0.win 3).blk t).view.emb (ix3 (0 : Fin 1) n o) = ix3 (bat t) n o := by
  obtain ⟨-, -, -, -, -, -, -, e0, e1, e2⟩ := idx_facts t
  funext a
  apply Fin.ext
  match a with
  | ⟨0, _⟩ => show win0_3.index t (0 : Fin 3) * 1 + 1 * (0 : Fin 1).val = t.val; rw [e0]; simp
  | ⟨1, _⟩ => show win0_3.index t (1 : Fin 3) * 2048 + 1 * n.val = n.val; rw [e1]; omega
  | ⟨2, _⟩ => show win0_3.index t (2 : Fin 3) * 64 + 1 * o.val = o.val; rw [e2]; omega

/-! ## The slab a point leaves -/

/-- The slab at an entry, from any three input blocks: the one store covers the buffer from offset zero, so the slab is
    the store's payload, and each load is of a whole buffer. -/
theorem slab_at (x0 : Vec Ideal S1x2048x128 .f32) (x1 : Vec Ideal S64x128 .f32) (x2 : Vec Ideal S1x64 .f32) (n : Fin 2048) (o : Fin 64) :
    Proj.slab (F := Ideal) x0 x1 x2 (ix3 (0 : Fin 1) n o)
      = (∑ k : Fin 128, x0 (ix3 (0 : Fin 1) n k) * x1 (ix2 o k)) + x2 (ix2 (0 : Fin 1) o) := by
  unfold Proj.slab
  rw [View.canon_unit_zero hz3]
  simp only [View.ld_unit_zero (S := S1x2048x128) hz3, View.ld_unit_zero (S := S64x128) hz2, View.ld_unit_zero (S := S1x64) hz2]
  exact ProjPayload.e_at x0 x1 x2 n o

/-- Point `t`'s slab, entry by entry, is batch `t` of the projected features. -/
theorem slab_blk_at (c : Dev nD) (t : Fin cfg0.N) (n : Fin 2048) (o : Fin 64) :
    Proj.slab (F := Ideal) (xblk V c t) (wblk V c t) (bblk V c t) (ix3 (0 : Fin 1) n o)
      = Spec.proj (xarr V c) (warr V c) (Spec.unrow (barr V c)) (ix3 (bat t) n o) := by
  rw [slab_at, Spec.proj_ix3]
  unfold Spec.projAt
  rw [Spec.unrow_ix1, bblk_at]
  congr 1
  refine Finset.sum_congr rfl fun k _ => ?_
  rw [xblk_at, wblk_at]

/-- What point `t` writes back is block `t` of the projected features of the entry arrays. -/
theorem flushed_eq (c : Dev nD) (t : Fin cfg0.N) :
    (Proj.dat (F := Ideal) V c).flushed 3 t
      = ((cfg0.win 3).blk t).view.read (Elt Ideal) (Spec.proj (V c main_arg0) (V c main_arg1) (Spec.unrow (V c main_v0))) := by
  show (cfg0.win 3).cut (cfg0.grid.coords t) ((Proj.dat (F := Ideal) V c).after 3 t) = _
  rw [Proj.after_e]
  have key : ∀ j : S1x2048x64.Idx, Proj.slab (F := Ideal) (xblk V c t) (wblk V c t) (bblk V c t) j
      = Spec.proj (xarr V c) (warr V c) (Spec.unrow (barr V c)) (((cfg0.win 3).blk t).view.emb j) := by
    intro j
    obtain ⟨z, n, o, rfl⟩ : ∃ (z : Fin 1) (n : Fin 2048) (o : Fin 64), j = ix3 z n o := ⟨j 0, j 1, j 2, eq_ix3 j⟩
    obtain rfl : z = 0 := Subsingleton.elim _ _
    rw [eblk_emb]
    exact slab_blk_at V c t n o
  funext j
  exact key j

/-! ## The eight blocks tile the array -/

/-- An index of the result array is in point `t`'s block iff each coordinate is in the block's range on its axis. -/
theorem mem_blk (t : Fin cfg0.N) (i : S8x2048x64.Idx) :
    i ∈ ((cfg0.win 3).blk t).view.set ↔ ∀ a : Fin 3, win0_3.index t a * S1x2048x64.size a ≤ (i a).val ∧ (i a).val < win0_3.index t a * S1x2048x64.size a + S1x2048x64.size a := by
  show i ∈ ((View.whole main_v1).slice (win0_3.rect t)).set ↔ _
  rw [View.set_slice_whole, Rect.mem_set_unit]
  exact Iff.rfl

/-- Every entry of the result array is in the block of the point numbered by its batch coordinate, and every point
    writes back. -/
theorem cover (i : S8x2048x64.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 64 := (i 2).isLt
  obtain ⟨t, ht⟩ : ∃ t : Fin cfg0.N, t.val = (i 0).val := ⟨⟨(i 0).val, lt_of_lt_of_eq hi0 N_0.symm⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 64 ≤ (i 2).val ∧ (i 2).val < win0_3.index t (2 : Fin 3) * 64 + 64; omega

/-! ## The array after the call -/

/-- The result array after the call is the projected features of the entry arrays. -/
theorem arr_eq (V : (c : Dev nD) → (b : Ref sig .tc) → Buf (Elt Ideal) ((c : Thread nD τ).loc b)) (c : Dev nD) :
    (Proj.dat (F := Ideal) V c).arrAt 3 cfg0.N = Spec.proj (V c main_arg0) (V c main_arg1) (Spec.unrow (V c main_v0)) :=
  (Proj.dat (F := Ideal) V c).arrAt_eq_of_cover 3 (Spec.proj (V c main_arg0) (V c main_arg1) (Spec.unrow (V c main_v0)))
    (fun t _ => flushed_eq V c t) cover

end Cert.KernelIdeal.ProjValue

end
-- ==== Proof.LinkPayload.lean ====
/-
  The link body's arithmetic at an entry: the rectified `tanh` of a query row against a key row, and a query row's
  link-weighted sum of the key rows scaled by `2⁻¹¹`.
-/
import proofs.«150888_j43379169689769_1_alg».proof.Proof.Gen.KernelIdeal.Skeleton
import proofs.«150888_j43379169689769_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinkPayload

open Idealize.ShloMosaic Idealize.ShloMosaic.ValueIdx
open Cert.KernelIdeal Cert.KernelIdeal.Gen

/-- The link weight of query row `i` of the tile `x0` against key row `j` of `x1`. -/
def lpAt (x0 : Vec Ideal S1x512x64 .f32) (x1 : Vec Ideal S1x2048x64 .f32) (i : Fin 512) (j : Fin 2048) : Ideal .f32 :=
  max (Ideal.tanh (∑ c : Fin 64, x0 (ix3 (0 : Fin 1) i c) * x1 (ix3 (0 : Fin 1) j c))) Spec.zeroWord

/-! ## The first product: query rows against key rows, both contracted along their feature axis -/

/-- The left operand's row axis reads the result's row. -/
theorem lhs_gram_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
/-- The left operand's feature axis reads the contraction position. -/
theorem lhs_gram_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
/-- The right operand's row axis reads the result's column. -/
theorem rhs_gram_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
/-- The right operand's feature axis reads the contraction position. -/
theorem rhs_gram_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Into the zero accumulator the first product at `(i, j)` is the sum over the 64 features of row `i` of the left
    operand times row `j` of the right one. -/
theorem gram_apply (l : FVec Ideal S512x64 .bf16) (r : FVec Ideal S2048x64 .bf16) (i : Fin 512) (j : Fin 2048) :
    FloatOps.matmul dot_S512x64_S2048x64_S512x2048_1_1_0_0_n_n none l r (constant (F := Ideal) S512x2048 .f32 0x00000000#32) (ix2 i j)
      = ∑ c : Fin 64, l (ix2 i c) * r (ix2 j c) := by
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 i j) ((contrEquiv1 dot_S512x64_S2048x64_S512x2048_1_1_0_0_n_n 64 rfl rfl).symm k) = ix2 i k := funext fun a => Fin.ext (by
    match a with
    | ⟨0, _⟩ => exact lhs_gram_0 _ _
    | ⟨1, _⟩ => exact (lhs_gram_1 _ _).trans hk)
  have er : dot_S512x64_S2048x64_S512x2048_1_1_0_0_n_n.rhsIdx (ix2 i j) ((contrEquiv1 dot_S512x64_S2048x64_S512x2048_1_1_0_0_n_n 64 rfl rfl).symm k) = ix2 j k := funext fun a => Fin.ext (by
    match a with
    | ⟨0, _⟩ => exact rhs_gram_0 _ _
    | ⟨1, _⟩ => exact (rhs_gram_1 _ _).trans hk)
  rw [el, er]

/-! ## The second product: link rows against the key rows, contracted along the key index -/

/-- The left operand's row axis reads the result's row. -/
theorem lhs_mix_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- The left operand's key axis reads the contraction position. -/
theorem lhs_mix_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- The right operand's key axis reads the contraction position. -/
theorem rhs_mix_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- The right operand's feature axis reads the result's column. -/
theorem rhs_mix_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Into the zero accumulator the second product at `(i, c)` is the sum over the 2048 keys of the left operand's
    entry `(i, j)` times the right operand's entry `(j, c)`. -/
theorem mix_apply (l : FVec Ideal S512x2048 .bf16) (r : FVec Ideal S2048x64 .bf16) (i : Fin 512) (c : Fin 64) :
    FloatOps.matmul dot_S512x2048_S2048x64_S512x64_1_0_0_1_n_n none l r (constant (F := Ideal) S512x64 .f32 0x00000000#32) (ix2 i c)
      = ∑ j : Fin 2048, l (ix2 i j) * r (ix2 j c) := by
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 i c) ((contrEquiv1 dot_S512x2048_S2048x64_S512x64_1_0_0_1_n_n 2048 rfl rfl).symm k) = ix2 i k := funext fun a => Fin.ext (by
    match a with
    | ⟨0, _⟩ => exact lhs_mix_0 _ _
    | ⟨1, _⟩ => exact (lhs_mix_1 _ _).trans hk)
  have er : dot_S512x2048_S2048x64_S512x64_1_0_0_1_n_n.rhsIdx (ix2 i c) ((contrEquiv1 dot_S512x2048_S2048x64_S512x64_1_0_0_1_n_n 2048 rfl rfl).symm k) = ix2 k c := funext fun a => Fin.ext (by
    match a with
    | ⟨0, _⟩ => exact (rhs_mix_0 _ _).trans hk
    | ⟨1, _⟩ => exact rhs_mix_1 _ _)
  rw [el, er]

/-! ## The payloads at an entry -/

/-- The key rows as the products read them: the tile's entry `(0, j, c)`. -/
theorem keys_at (x1 : Vec Ideal S1x2048x64 .f32) (j : Fin 2048) (c : Fin 64) :
    k1_pay1 (F := Ideal) x1 (ix2 j c) = x1 (ix3 (0 : Fin 1) j c) := by
  unfold k1_pay1
  exact shapeCast_1ab_ab_apply x1 shapeCasts_S1x2048x64_S2048x64 j c

/-- The rectified `tanh` of the first product at `(i, j)` is the link weight. -/
theorem link_at (x0 : Vec Ideal S1x512x64 .f32) (x1 : Vec Ideal S1x2048x64 .f32) (i : Fin 512) (j : Fin 2048) :
    k1_pay2 (F := Ideal) x0 x1 (ix2 i j) = lpAt x0 x1 i j := by
  unfold k1_pay2 lpAt
  show max (Ideal.tanh (FloatOps.matmul dot_S512x64_S2048x64_S512x2048_1_1_0_0_n_n none
      (truncf .bf16 (shapeCast S512x64 x0 shapeCasts_S1x512x64_S512x64) bitsLt_bf16_f32) (k1_pay1 (F := Ideal) x1)
      (constant (F := Ideal) S512x2048 .f32 0x00000000#32) (ix2 i j))) (Ideal.ofBits .f32 0x00000000#32) = _
  refine congrArg (fun y => max (Ideal.tanh y) Spec.zeroWord) ?_
  refine (gram_apply _ _ i j).trans ?_
  refine Finset.sum_congr rfl fun c _ => ?_
  refine congrArg₂ (· * ·) ?_ (keys_at x1 j c)
  exact shapeCast_1ab_ab_apply x0 shapeCasts_S1x512x64_S512x64 i c

/-- The first store's value at entry `(0, i, j)` of the tile. -/
theorem lp_at (x0 : Vec Ideal S1x512x64 .f32) (x1 : Vec Ideal S1x2048x64 .f32) (i : Fin 512) (j : Fin 2048) :
    k1_pay3 (F := Ideal) x0 x1 (ix3 (0 : Fin 1) i j) = lpAt x0 x1 i j := by
  unfold k1_pay3
  exact (shapeCast_ab_1ab_apply (k1_pay2 (F := Ideal) x0 x1) shapeCasts_S512x2048_S1x512x2048 (0 : Fin 1) i j).trans (link_at x0 x1 i j)

/-- The second store's value at entry `(0, i, c)` of the tile. -/
theorem nf_at (x0 : Vec Ideal S1x512x64 .f32) (x1 : Vec Ideal S1x2048x64 .f32) (i : Fin 512) (c : Fin 64) :
    k1_pay4 (F := Ideal) x0 x1 (ix3 (0 : Fin 1) i c)
      = (∑ j : Fin 2048, lpAt x0 x1 i j * x1 (ix3 (0 : Fin 1) j c)) * Spec.recipWord := by
  unfold k1_pay4
  refine (shapeCast_ab_1ab_apply _ shapeCasts_S512x64_S1x512x64 (0 : Fin 1) i c).trans ?_
  show FloatOps.matmul dot_S512x2048_S2048x64_S512x64_1_0_0_1_n_n none
      (truncf .bf16 (k1_pay2 (F := Ideal) x0 x1) bitsLt_bf16_f32) (k1_pay1 (F := Ideal) x1)
      (constant (F := Ideal) S512x64 .f32 0x00000000#32) (ix2 i c) * Ideal.ofBits .f32 0x3A000000#32 = _
  refine congrArg (· * Spec.recipWord) ?_
  refine (mix_apply _ _ i c).trans ?_
  refine Finset.sum_congr rfl fun j _ => ?_
  exact congrArg₂ (· * ·) (link_at x0 x1 i j) (keys_at x1 j c)

end Cert.KernelIdeal.LinkPayload

end
-- ==== Proof.LinkValue.lean ====
/-
  The link call's two result arrays, entry by entry: after all thirty-two grid points they hold `Spec.link` and
  `Spec.feat` of the feature array the call was entered from (tile `(β, r)` is what point `(β, r)` wrote back, and the
  tiles cover each array).
-/
import proofs.«150888_j43379169689769_1_alg».proof.Proof.Link
import proofs.«150888_j43379169689769_1_alg».proof.Proof.Spec
import proofs.«150888_j43379169689769_1_alg».proof.Proof.LinkPayload
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinkValue

open Idealize.ShloMosaic Idealize.ShloMosaic.TcCoe Idealize.ShloMosaic.ValueIdx Idealize.SL.Sem
open Cert.KernelIdeal Cert.KernelIdeal.Gen

/-! ## The printed index maps over the grid -/

/-- A whole buffer's rectangle starts at the origin. -/
theorem hz3 : (![0, 0, 0] : Fin 3 → Nat) = fun _ => 0 := funext fun a => by fin_cases a <;> rfl

/-- The four windows' block indices, decided over the thirty-two points: the query, link-weight and node-feature
    windows sit at block `(β, r, 0)`, the key window at `(β, 0, 0)`, with `β < 8` and `r < 4`. -/
theorem idx_facts : ∀ t : Fin cfg1.N,
    win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = 0
    ∧ win1_1.index t (2 : Fin 3) = 0
    ∧ win1_3.index t (0 : Fin 3) = win1_2.index t (0 : Fin 3)
    ∧ win1_3.index t (1 : Fin 3) = win1_2.index t (1 : Fin 3)
    ∧ win1_3.index t (2 : Fin 3) = 0
    ∧ win1_2.index t (0 : Fin 3) < 8
    ∧ win1_2.index t (1 : Fin 3) < 4
    ∧ win1_2.index t (2 : Fin 3) = 0 :=
  (by decide +kernel : ∀ t : Fin grid1.N, _)

/-- Every block `(β, r, 0)` of the two result arrays is some point's. -/
theorem idx_onto : ∀ (q0 : Fin 8) (q1 : Fin 4), ∃ t : Fin cfg1.N, win1_2.index t = ![q0.val, q1.val, 0] ∧ win1_3.index t = ![q0.val, q1.val, 0] :=
  (by decide +kernel : ∀ (q0 : Fin 8) (q1 : Fin 4), ∃ t : Fin grid1.N, win1_2.index t = ![q0.val, q1.val, 0] ∧ win1_3.index t = ![q0.val, q1.val, 0])

section

variable (V : (c : Dev nD) → (b : Ref sig .tc) → Buf (Elt Ideal) ((c : Thread nD τ).loc b))

/-- The feature array the call is entered from. -/
abbrev feats (c : Dev nD) : FVec Ideal Spec.SE .f32 := V c main_v1

/-- The query block at a point is the tile's rows of the feature array. -/
theorem blkQ_apply (c : Dev nD) (t : Fin cfg1.N) (i : Fin 512) (k : Fin 64) (β : Fin 8) (n : Fin 2048)
    (hβ : β.val = win1_2.index t (0 : Fin 3)) (hn : n.val = win1_2.index t (1 : Fin 3) * 512 + i.val) :
    (Link.blk (F := Ideal) V c 0 t : Vec Ideal S1x512x64 .f32) (ix3 (0 : Fin 1) i k) = feats V c (ix3 β n k) := by
  obtain ⟨e0, e1, e2, -⟩ := idx_facts t
  show V c main_v1 (((cfg1.win 0).blk t).view.emb (ix3 (0 : Fin 1) i k)) = V c main_v1 (ix3 β n k)
  congr 1
  funext a; apply Fin.ext
  match a with
  | ⟨0, _⟩ => show win1_0.index t (0 : Fin 3) * 1 + 1 * 0 = β.val; omega
  | ⟨1, _⟩ => show win1_0.index t (1 : Fin 3) * 512 + 1 * i.val = n.val; omega
  | ⟨2, _⟩ => show win1_0.index t (2 : Fin 3) * 64 + 1 * k.val = k.val; omega

/-- The key block at a point is all rows of the batch. -/
theorem blkK_apply (c : Dev nD) (t : Fin cfg1.N) (j : Fin 2048) (k : Fin 64) (β : Fin 8)
    (hβ : β.val = win1_2.index t (0 : Fin 3)) :
    (Link.blk (F := Ideal) V c 1 t : Vec Ideal S1x2048x64 .f32) (ix3 (0 : Fin 1) j k) = feats V c (ix3 β j k) := by
  obtain ⟨-, -, -, e0, e1, e2, -⟩ := idx_facts t
  show V c main_v1 (((cfg1.win 1).blk t).view.emb (ix3 (0 : Fin 1) j k)) = V c main_v1 (ix3 β j k)
  congr 1
  funext a; apply Fin.ext
  match a with
  | ⟨0, _⟩ => show win1_1.index t (0 : Fin 3) * 1 + 1 * 0 = β.val; omega
  | ⟨1, _⟩ => show win1_1.index t (1 : Fin 3) * 2048 + 1 * j.val = j.val; omega
  | ⟨2, _⟩ => show win1_1.index t (2 : Fin 3) * 64 + 1 * k.val = k.val; omega

/-! ## A tile's entries, over the feature array -/

/-- A tile's link weight is the array's, once the two blocks are rows of the feature array. -/
theorem lpAt_eq (e : FVec Ideal Spec.SE .f32) (x0 : Vec Ideal S1x512x64 .f32) (x1 : Vec Ideal S1x2048x64 .f32)
    (β : Fin 8) (i : Fin 512) (n : Fin 2048) (j : Fin 2048)
    (h0 : ∀ k : Fin 64, x0 (ix3 (0 : Fin 1) i k) = e (ix3 β n k))
    (h1 : ∀ (j : Fin 2048) (k : Fin 64), x1 (ix3 (0 : Fin 1) j k) = e (ix3 β j k)) :
    LinkPayload.lpAt x0 x1 i j = Spec.linkAt e β n j := by
  unfold LinkPayload.lpAt Spec.linkAt Spec.gramAt
  simp only [h0, h1]

/-- The first store's entry `(0, i, j)` is the link weight of row `n` against row `j` of batch `β`. -/
theorem lp_entry (e : FVec Ideal Spec.SE .f32) (x0 : Vec Ideal S1x512x64 .f32) (x1 : Vec Ideal S1x2048x64 .f32)
    (β : Fin 8) (i : Fin 512) (n : Fin 2048) (j : Fin 2048)
    (h0 : ∀ k : Fin 64, x0 (ix3 (0 : Fin 1) i k) = e (ix3 β n k))
    (h1 : ∀ (j : Fin 2048) (k : Fin 64), x1 (ix3 (0 : Fin 1) j k) = e (ix3 β j k)) :
    k1_pay3 (F := Ideal) x0 x1 (ix3 (0 : Fin 1) i j) = Spec.link e (ix3 β n j) := by
  rw [LinkPayload.lp_at, Spec.link_ix3]
  exact lpAt_eq e x0 x1 β i n j h0 h1

/-- The second store's entry `(0, i, k)` is node feature `k` of row `n` of batch `β`. -/
theorem nf_entry (e : FVec Ideal Spec.SE .f32) (x0 : Vec Ideal S1x512x64 .f32) (x1 : Vec Ideal S1x2048x64 .f32)
    (β : Fin 8) (i : Fin 512) (n : Fin 2048) (k : Fin 64)
    (h0 : ∀ k : Fin 64, x0 (ix3 (0 : Fin 1) i k) = e (ix3 β n k))
    (h1 : ∀ (j : Fin 2048) (k : Fin 64), x1 (ix3 (0 : Fin 1) j k) = e (ix3 β j k)) :
    k1_pay4 (F := Ideal) x0 x1 (ix3 (0 : Fin 1) i k) = Spec.feat e (Spec.link e) (ix3 β n k) := by
  rw [LinkPayload.nf_at, Spec.feat_ix3]
  unfold Spec.featAt
  congr 1
  refine Finset.sum_congr rfl fun j _ => ?_
  rw [lpAt_eq e x0 x1 β i n j h0 h1, Spec.link_ix3, h1]

/-! ## What a point writes back -/

/-- Point `t` writes back block `t` of the link weights of the feature array. -/
theorem flushed_lp (c : Dev nD) (t : Fin cfg1.N) :
    (Link.dat (F := Ideal) V c).flushed 2 t = ((cfg1.win 2).blk t).view.read (Elt Ideal) (Spec.link (feats V c)) := by
  show (cfg1.win 2).cut (cfg1.grid.coords t) ((Link.dat (F := Ideal) V c).after 2 t) = _
  rw [Link.after_lp]
  unfold Link.lpTile
  rw [View.canon_unit_zero hz3]
  simp only [View.ld_unit_zero (S := S1x512x64) hz3, View.ld_unit_zero (S := S1x2048x64) hz3]
  obtain ⟨-, -, -, -, -, -, -, -, -, b0, b1, e2⟩ := idx_facts t
  funext y
  obtain ⟨p, i, j, rfl⟩ : ∃ (p : Fin 1) (i : Fin 512) (j : Fin 2048), y = ix3 p i j := ⟨y 0, y 1, y 2, eq_ix3 y⟩
  obtain rfl : p = 0 := Subsingleton.elim _ _
  refine (lp_entry (feats V c) (Link.blk V c 0 t) (Link.blk V c 1 t) ⟨win1_2.index t (0 : Fin 3), b0⟩ i
      ⟨win1_2.index t (1 : Fin 3) * 512 + i.val, by have := i.isLt; omega⟩ j
      (fun k => blkQ_apply V c t i k _ _ rfl rfl) (fun j k => blkK_apply V c t j k _ rfl)).trans ?_
  show Spec.link (feats V c) _ = Spec.link (feats V c) (((cfg1.win 2).blk t).view.emb (ix3 (0 : Fin 1) i j))
  congr 1
  funext a; apply Fin.ext
  match a with
  | ⟨0, _⟩ => show win1_2.index t (0 : Fin 3) = win1_2.index t (0 : Fin 3) * 1 + 1 * 0; omega
  | ⟨1, _⟩ => show win1_2.index t (1 : Fin 3) * 512 + i.val = win1_2.index t (1 : Fin 3) * 512 + 1 * i.val; omega
  | ⟨2, _⟩ => show j.val = win1_2.index t (2 : Fin 3) * 2048 + 1 * j.val; omega

/-- Point `t` writes back block `t` of the node features of the feature array. -/
theorem flushed_nf (c : Dev nD) (t : Fin cfg1.N) :
    (Link.dat (F := Ideal) V c).flushed 3 t
      = ((cfg1.win 3).blk t).view.read (Elt Ideal) (Spec.feat (feats V c) (Spec.link (feats V c))) := by
  show (cfg1.win 3).cut (cfg1.grid.coords t) ((Link.dat (F := Ideal) V c).after 3 t) = _
  rw [Link.after_nf]
  unfold Link.nfTile
  rw [View.canon_unit_zero hz3]
  simp only [View.ld_unit_zero (S := S1x512x64) hz3, View.ld_unit_zero (S := S1x2048x64) hz3]
  obtain ⟨-, -, -, -, -, -, f0, f1, f2, b0, b1, -⟩ := idx_facts t
  funext y
  obtain ⟨p, i, k, rfl⟩ : ∃ (p : Fin 1) (i : Fin 512) (k : Fin 64), y = ix3 p i k := ⟨y 0, y 1, y 2, eq_ix3 y⟩
  obtain rfl : p = 0 := Subsingleton.elim _ _
  refine (nf_entry (feats V c) (Link.blk V c 0 t) (Link.blk V c 1 t) ⟨win1_2.index t (0 : Fin 3), b0⟩ i
      ⟨win1_2.index t (1 : Fin 3) * 512 + i.val, by have := i.isLt; omega⟩ k
      (fun k => blkQ_apply V c t i k _ _ rfl rfl) (fun j k => blkK_apply V c t j k _ rfl)).trans ?_
  show Spec.feat (feats V c) (Spec.link (feats V c)) _
    = Spec.feat (feats V c) (Spec.link (feats V c)) (((cfg1.win 3).blk t).view.emb (ix3 (0 : Fin 1) i k))
  congr 1
  funext a; apply Fin.ext
  match a with
  | ⟨0, _⟩ => show win1_2.index t (0 : Fin 3) = win1_3.index t (0 : Fin 3) * 1 + 1 * 0; omega
  | ⟨1, _⟩ => show win1_2.index t (1 : Fin 3) * 512 + i.val = win1_3.index t (1 : Fin 3) * 512 + 1 * i.val; omega
  | ⟨2, _⟩ => show k.val = win1_3.index t (2 : Fin 3) * 64 + 1 * k.val; omega

/-! ## The tiles cover each array -/

/-- An index of the link-weight array is in point `t`'s block iff each coordinate is in the block's range. -/
theorem mem_blk_lp (t : Fin cfg1.N) (i : S8x2048x2048.Idx) :
    i ∈ ((cfg1.win 2).blk t).view.set ↔ ∀ a : Fin 3, win1_2.index t a * S1x512x2048.size a ≤ (i a).val ∧ (i a).val < win1_2.index t a * S1x512x2048.size a + S1x512x2048.size a := by
  show i ∈ ((View.whole main_v2_0).slice (win1_2.rect t)).set ↔ _
  rw [View.set_slice_whole, Rect.mem_set_unit]
  exact Iff.rfl

/-- The same for the node-feature array. -/
theorem mem_blk_nf (t : Fin cfg1.N) (i : S8x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v2_1).slice (win1_3.rect t)).set ↔ _
  rw [View.set_slice_whole, Rect.mem_set_unit]
  exact Iff.rfl

/-- Entry `(β, n, j)` of the link weights lies in the tile of batch `β` and row tile `n / 512`. -/
theorem cover_lp (i : S8x2048x2048.Idx) :
    ∃ t : Fin cfg1.N, (cfg1.win 2).flush t = true ∧ i ∈ ((cfg1.win 2).blk t).view.set := by
  have hi0 : (i 0).val < 8 := (i 0).isLt
  have hi1 : (i 1).val < 2048 := (i 1).isLt
  have hi2 : (i 2).val < 2048 := (i 2).isLt
  obtain ⟨t, ht, -⟩ := idx_onto ⟨(i 0).val, hi0⟩ ⟨(i 1).val / 512, by omega⟩
  have q0 : win1_2.index t (0 : Fin 3) = (i 0).val := congrFun ht 0
  have q1 : win1_2.index t (1 : Fin 3) = (i 1).val / 512 := congrFun ht 1
  have q2 : win1_2.index t (2 : Fin 3) = 0 := congrFun ht 2
  refine ⟨t, flush1_2 t, ?_⟩
  rw [mem_blk_lp]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 2048 ≤ (i 2).val ∧ (i 2).val < win1_2.index t (2 : Fin 3) * 2048 + 2048; omega

/-- Entry `(β, n, k)` of the node features lies in the tile of batch `β` and row tile `n / 512`. -/
theorem cover_nf (i : S8x2048x64.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 64 := (i 2).isLt
  obtain ⟨t, -, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk_nf]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

end

/-! ## The two arrays after the call -/

/-- The link-weight array after the call. -/
theorem lp_eq (V : (c : Dev nD) → (b : Ref sig .tc) → Buf (Elt Ideal) ((c : Thread nD τ).loc b)) (c : Dev nD) :
    (Link.dat (F := Ideal) V c).arrAt 2 cfg1.N = Spec.link (V c main_v1) :=
  (Link.dat (F := Ideal) V c).arrAt_eq_of_cover 2 (Spec.link (V c main_v1)) (fun t _ => flushed_lp V c t) cover_lp

/-- The node-feature array after the call. -/
theorem nf_eq (V : (c : Dev nD) → (b : Ref sig .tc) → Buf (Elt Ideal) ((c : Thread nD τ).loc b)) (c : Dev nD) :
    (Link.dat (F := Ideal) V c).arrAt 3 cfg1.N = Spec.feat (V c main_v1) (Spec.link (V c main_v1)) :=
  (Link.dat (F := Ideal) V c).arrAt_eq_of_cover 3 (Spec.feat (V c main_v1) (Spec.link (V c main_v1)))
    (fun t _ => flushed_nf V c t) cover_nf

end Cert.KernelIdeal.LinkValue

end
-- ==== Proof.Results.lean ====
/-
  The idealized kernel's results in the launch memory's terms. The link call is entered with the feature array at what
  the projection call left, which is `Spec.proj` of the three arguments (the bias row the projection call is handed is
  the bias vector, entry for entry); so the link weights end at `Spec.link` of the projected features and the node
  features at `Spec.feat` of both.
-/
import proofs.«150888_j43379169689769_1_alg».proof.Proof.Run
import proofs.«150888_j43379169689769_1_alg».proof.Proof.ProjValue
import proofs.«150888_j43379169689769_1_alg».proof.Proof.LinkValue
import Idealize.ShloMosaic.Lib.StableHlo.Run
import Idealize.ShloMosaic.Lib.Pipeline.Value

noncomputable section

namespace Cert.KernelIdeal.Results

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The projected features of the launch memory's arguments, on core `c`. -/
abbrev feats (c : Dev nD) : FVec Ideal Spec.SE .f32 :=
  Spec.proj (m ((c : Thread nD τ).loc main_arg0)) (m ((c : Thread nD τ).loc main_arg1)) (m ((c : Thread nD τ).loc main_arg2))

/-- The bias row the projection call is handed is the bias vector reshaped: entry `(0, o)` is entry `o`. -/
theorem bias_row (c : Dev nD) : Spec.unrow (Run.V1 (F := Ideal) m ρ c main_v0) = m ((c : Thread nD τ).loc main_arg2) := by
  have e : (Run.V1 (F := Ideal) m ρ c main_v0 : S1x64.Idx → EReal)
      = shapeCast S1x64 (m ((c : Thread nD τ).loc main_arg2)) shapeCasts_S64_S1x64 := by
    show StableHlo.after hostOps0 (fun b => m (c, b)) (Proc.devRef .tc main_v0) = _
    after_results
    rfl
  funext i
  obtain ⟨o, rfl⟩ : ∃ o : Fin 64, i = ix1 o := ⟨i 0, eq_ix1 i⟩
  rw [Spec.unrow_ix1, e, shapeCast_addUnit_apply]
  exact congrArg _ (funext fun a => by match a with | ⟨0, _⟩ => rfl)

/-- The link call is entered with the feature array at the projected features. -/
theorem entered_feats (c : Dev nD) : Run.V2 (F := Ideal) m ρ c main_v1 = feats m c := by
  rw [Run.V2_feat, ProjValue.arr_eq, Run.V1_x, Run.V1_w, bias_row]

/-- THE IDEALIZED KERNEL'S RUN, VALUES NAMED: the node features, the link weights, the arguments unchanged. -/
theorem run : θ_run defs (onTc (τ := τ) (main (F := Ideal))) ⟨m, fun _ => 0, ρ⟩ (fun r => ∀ c : Dev nD,
      r.2.mem ((c.tc : Thread nD τ).loc main_v2_1) = Spec.feat (feats m c) (Spec.link (feats m c))
      ∧ r.2.mem ((c.tc : Thread nD τ).loc main_v2_0) = Spec.link (feats m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c).1.trans ((LinkValue.nf_eq (Run.V2 m ρ) c).trans (by rw [entered_feats])),
       (h c).2.1.trans ((LinkValue.lp_eq (Run.V2 m ρ) c).trans (by rw [entered_feats])),
       (h c).2.2⟩)
    (Run.run_main (F := Ideal) m ρ)

end Cert.KernelIdeal.Results

end
-- ==== Proof.RefValue.lean ====
/-
  The reference's two results are the specification's functions of its three arguments, entry by entry.
-/
import proofs.«150888_j43379169689769_1_alg».proof.Proof.Gen.ReferenceIdeal.Read
import proofs.«150888_j43379169689769_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Read

/-! ## Where each operation reads its operands, at explicit coordinates -/

/-- The first product's left operand: row `(β, n)` of `x`, entry `k`. -/
theorem lidx_v0_ix3 (β : Fin 8) (n : Fin 2048) (o : Fin 64) (k : Fin 128) :
    lidx_main_v0 (ix3 β n o) k = ix3 β n k :=
  funext fun a => Fin.ext (by match a with | ⟨0, _⟩ => rfl | ⟨1, _⟩ => rfl | ⟨2, _⟩ => rfl)

/-- The first product's right operand: row `o` of `W`, entry `k`. -/
theorem ridx_v0_ix3 (β : Fin 8) (n : Fin 2048) (o : Fin 64) (k : Fin 128) :
    ridx_main_v0 (ix3 β n o) k = ix2 o k :=
  funext fun a => Fin.ext (by match a with | ⟨0, _⟩ => rfl | ⟨1, _⟩ => rfl)

/-- The two broadcasts of the bias, composed: entry `(β, n, o)` reads `b[o]`. -/
theorem idx_bias_ix3 (β : Fin 8) (n : Fin 2048) (o : Fin 64) :
    idx_main_v1 (idx_main_v2 (ix3 β n o)) = ix1 o :=
  funext fun a => Fin.ext (by match a with | ⟨0, _⟩ => rfl)

/-- The Gram product's left operand: feature row `i` of batch `β`. -/
theorem lidx_v4_ix3 (β : Fin 8) (i j : Fin 2048) (c : Fin 64) :
    lidx_main_v4 (ix3 β i j) c = ix3 β i c :=
  funext fun a => Fin.ext (by match a with | ⟨0, _⟩ => rfl | ⟨1, _⟩ => rfl | ⟨2, _⟩ => rfl)

/-- The Gram product's right operand: feature row `j` of batch `β`. -/
theorem ridx_v4_ix3 (β : Fin 8) (i j : Fin 2048) (c : Fin 64) :
    ridx_main_v4 (ix3 β i j) c = ix3 β j c :=
  funext fun a => Fin.ext (by match a with | ⟨0, _⟩ => rfl | ⟨1, _⟩ => rfl | ⟨2, _⟩ => rfl)

/-- The aggregation's left operand: link weight `(i, j)` of batch `β`. -/
theorem lidx_v7_ix3 (β : Fin 8) (i : Fin 2048) (c : Fin 64) (j : Fin 2048) :
    lidx_main_v7 (ix3 β i c) j = ix3 β i j :=
  funext fun a => Fin.ext (by match a with | ⟨0, _⟩ => rfl | ⟨1, _⟩ => rfl | ⟨2, _⟩ => rfl)

/-- The aggregation's right operand: feature row `j` of batch `β`, entry `c`. -/
theorem ridx_v7_ix3 (β : Fin 8) (i : Fin 2048) (c : Fin 64) (j : Fin 2048) :
    ridx_main_v7 (ix3 β i c) j = ix3 β j c :=
  funext fun a => Fin.ext (by match a with | ⟨0, _⟩ => rfl | ⟨1, _⟩ => rfl | ⟨2, _⟩ => rfl)

/-! ## The projected features -/

/-- The reference's biased product `x · Wᵀ + b` is the specification's projection. -/
theorem proj_eq (x : FVec Ideal S8x2048x128 .f32) (w : FVec Ideal S64x128 .f32) (b : FVec Ideal S64 .f32) :
    val_main_v3 (F := Ideal) x w b = Spec.proj x w b := by
  funext i
  obtain ⟨β, n, o, rfl⟩ : ∃ (β : Fin 8) (n : Fin 2048) (o : Fin 64), i = ix3 β n o := ⟨i 0, i 1, i 2, eq_ix3 i⟩
  rw [val_main_v3_apply, val_main_v0_apply, val_main_v2_apply, val_main_v1_apply, Spec.proj_ix3]
  simp only [lidx_v0_ix3, ridx_v0_ix3, idx_bias_ix3, Ideal.addf_def]
  rfl

/-! ## The link weights -/

/-- The reference's link weights. -/
theorem link_eq (x : FVec Ideal S8x2048x128 .f32) (w : FVec Ideal S64x128 .f32) (b : FVec Ideal S64 .f32) :
    val_main_v6 (F := Ideal) x w b = Spec.link (Spec.proj x w b) := by
  funext q
  obtain ⟨β, i, j, rfl⟩ : ∃ (β : Fin 8) (i : Fin 2048) (j : Fin 2048), q = ix3 β i j := ⟨q 0, q 1, q 2, eq_ix3 q⟩
  rw [val_main_v6_apply, val_main_v5_apply, val_main_v4_apply, val_main_call0_v0_apply, val_main_call0_cst_apply,
    proj_eq, Spec.link_ix3]
  simp only [lidx_v4_ix3, ridx_v4_ix3, Ideal.hostUnary_tanh_def, Ideal.maximumf_def, Ideal.ofBits_def]
  rfl

/-! ## The node features -/

/-- The reference's node features. -/
theorem feat_eq (x : FVec Ideal S8x2048x128 .f32) (w : FVec Ideal S64x128 .f32) (b : FVec Ideal S64 .f32) :
    val_main_v9 (F := Ideal) x w b = Spec.feat (Spec.proj x w b) (Spec.link (Spec.proj x w b)) := by
  funext q
  obtain ⟨β, i, c, rfl⟩ : ∃ (β : Fin 8) (i : Fin 2048) (c : Fin 64), q = ix3 β i c := ⟨q 0, q 1, q 2, eq_ix3 q⟩
  rw [val_main_v9_apply, val_main_v7_apply, val_main_v8_apply, val_main_cst_apply, link_eq, proj_eq, Spec.feat_ix3]
  simp only [lidx_v7_ix3, ridx_v7_ix3, Ideal.hostDivf_def, Ideal.ofBits_def]
  exact Spec.div_count _

end Cert.ReferenceIdeal.RefValue

end
-- ==== Proof.lean ====
/-
  The certificate. A graph layer: features are projected (`e = x · Wᵀ + bias`), every pair of nodes of a batch gets the link
  weight `lp = max (tanh ⟨e_i, e_j⟩) 0`, and every node the link-weighted mean of the projected features over its
  `2048` neighbours. The kernel computes this in two pipelined calls (the projection one batch per grid point; the links
  and means one tile of 512 query rows per grid point against all key rows of the batch, the mean taken as a product
  with `2⁻¹¹`); the reference as three contractions, a `tanh`, a maximum and a division by `2048`.

  * The frames of the kernel, word-level and idealized, are the run of its two calls as regions of the pipeline
    library (module Run and its word-level copy), the results dropped. The reference's frame is its generated run,
    the results dropped.
  * The idealization rewrote nothing, so there is nothing to preserve.
  * Over the extended reals both programs end with the link weights at `Spec.link` and the node features at `Spec.feat`
    of the projected features `Spec.proj` of the arguments: the kernel by reading what each grid point writes back and
    covering the arrays with the blocks (modules ProjValue, LinkValue, Results), the reference by reading its
    operations one at a time (module RefValue). The only law used between them is that a product with `2⁻¹¹` is a
    quotient by `2¹¹`, which holds at every extended real: the precondition is never opened.
-/
import proofs.«150888_j43379169689769_1_alg».proof.Defs
import proofs.«150888_j43379169689769_1_alg».proof.Proof.Gen.Kernel
import proofs.«150888_j43379169689769_1_alg».proof.Proof.Gen.Kernel.Skeleton
import proofs.«150888_j43379169689769_1_alg».proof.Proof.Gen.Kernel.Launch
import proofs.«150888_j43379169689769_1_alg».proof.Proof.Gen.Kernel.Regions
import proofs.«150888_j43379169689769_1_alg».proof.Proof.Gen.Kernel.Points
import proofs.«150888_j43379169689769_1_alg».proof.Proof.Gen.KernelIdeal
import proofs.«150888_j43379169689769_1_alg».proof.Proof.Gen.KernelIdeal.Skeleton
import proofs.«150888_j43379169689769_1_alg».proof.Proof.Gen.KernelIdeal.Launch
import proofs.«150888_j43379169689769_1_alg».proof.Proof.Gen.KernelIdeal.Regions
import proofs.«150888_j43379169689769_1_alg».proof.Proof.Gen.KernelIdeal.Points
import proofs.«150888_j43379169689769_1_alg».proof.Proof.Gen.ReferenceIdeal
import proofs.«150888_j43379169689769_1_alg».proof.Proof.Gen.ReferenceIdeal.Run
import proofs.«150888_j43379169689769_1_alg».proof.Proof.Gen.ReferenceIdeal.Read
import proofs.«150888_j43379169689769_1_alg».proof.Proof.Gen.Pre_finite_inputs
import proofs.«150888_j43379169689769_1_alg».proof.Proof.Word.Run
import proofs.«150888_j43379169689769_1_alg».proof.Proof.Results
import proofs.«150888_j43379169689769_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_word : Cert.frame_Kernel := fun m ρ _ =>
  (θ_run (Cert.Kernel.defs (F := Bits)) _ _).mono (fun _ h c => (h c).2.2) (Cert.Kernel.Run.run_main (F := Bits) m ρ)

/-- So does the idealized kernel. -/
theorem frame_ideal : Cert.frame_KernelIdeal := fun m ρ _ =>
  (θ_run (Cert.KernelIdeal.defs (F := Ideal)) _ _).mono (fun _ h c => (h c).2.2) (Cert.KernelIdeal.Run.run_main (F := Ideal) m ρ)

/-- And the reference. -/
theorem frame_ref : Cert.frame_ReferenceIdeal := fun m ρ _ =>
  (θ_run Cert.ReferenceIdeal.defs _ _).mono (fun _ h c => (h c).2.2) (Cert.ReferenceIdeal.Value.run (F := Ideal) m ρ)

/-- From memories agreeing on the three arguments, both idealized programs end with the node features at `Spec.feat` and
    the link weights at `Spec.link` of the projected features of those arguments. -/
theorem algebraic : Cert.algebraic_KernelIdeal_ReferenceIdeal := by
  intro m ρ m' ρ' _ hagree
  refine ⟨fun c => Spec.feat (Cert.KernelIdeal.Results.feats m c) (Spec.link (Cert.KernelIdeal.Results.feats m c)),
    fun c => Spec.link (Cert.KernelIdeal.Results.feats m c), Cert.KernelIdeal.Results.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v9_eq, Cert.ReferenceIdeal.RefValue.feat_eq,
      (hagree c).1, (hagree c).2.1, (hagree c).2.2]
  · rw [(h c).2.1, Cert.ReferenceIdeal.Read.val_main_v6_eq, Cert.ReferenceIdeal.RefValue.link_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_word, frame_ideal, frame_ref, trivial, algebraic⟩

end Cert.Proof

end
